-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v14_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v14_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x64 : Shape := ⟨2, ![30000, 64]⟩
abbrev S480000x64 : Shape := ⟨2, ![480000, 64]⟩
abbrev S480000 : Shape := ⟨1, ![480000]⟩
abbrev S192x64 : Shape := ⟨2, ![192, 64]⟩
abbrev S64 : Shape := ⟨1, ![64]⟩
abbrev S64x64 : Shape := ⟨2, ![64, 64]⟩
abbrev S_ : Shape := ⟨0, ![]⟩

class Facts : Prop where
  bcast_S_S30000x64 : S_.BroadcastsInDim S30000x64 (![] : Fin 0 → Fin S30000x64.rank)
  reducesTo_S30000x64_S_d0_1 : S30000x64.ReducesTo [0, 1] S_
  h_S_ : 0 < S_.numel
  bcast_S_S480000x64 : S_.BroadcastsInDim S480000x64 (![] : Fin 0 → Fin S480000x64.rank)
  reducesTo_S480000x64_S_d0_1 : S480000x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part5 {F : FTy → Type} [FloatOps F] (main_arg20 : FVec F S64x64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x64 .f32 := Host.absf main_arg20
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  main_v93

def fn_part4 {F : FTy → Type} [FloatOps F] (main_arg16 : FVec F S192x64 .f32) (main_arg17 : FVec F S64 .f32) (main_arg18 : FVec F S64x64 .f32) (main_arg19 : FVec F S64 .f32) (main_arg20 : FVec F S64x64 .f32) (main_v63 : IVec S_ 1) (main_v67 : IVec S_ 1) : IVec S_ 1 :=
  let main_v68 : IVec S_ 1 := andi main_v63 main_v67
  let main_v69 : FVec F S192x64 .f32 := Host.absf main_arg16
  let main_cst_26 : FVec F S_ .f32 := constant S_ .f32 0x7F800000#32
  let main_v70 : FVec F S192x64 .f32 := broadcastInDim S192x64 ![] bcast_S_S192x64 main_cst_26
  let main_v71 : IVec S192x64 1 := cmpf .olt main_v69 main_v70
  let main_c_27 : IVec S_ 1 := constantI S_ 1 1#1
  let main_v72 : IVec S_ 1 := (fun x v => Host.reduce IntOp.andi x v reducesTo_S192x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg18
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S64 .f32) (main_arg14 : FVec F S64x64 .f32) (main_arg15 : FVec F S64 .f32) (main_arg16 : FVec F S192x64 .f32) (main_arg17 : FVec F S64 .f32) (main_arg18 : FVec F S64x64 .f32) (main_arg19 : FVec F S64 .f32) (main_arg20 : FVec F S64x64 .f32) (main_v48 : IVec S_ 1) (main_v49 : FVec F S192x64 .f32) (main_v50 : FVec F S192x64 .f32) : IVec S_ 1 :=
  let main_v51 : IVec S192x64 1 := cmpf .olt main_v49 main_v50
  let main_c_19 : IVec S_ 1 := constantI S_ 1 1#1
  let main_v52 : IVec S_ 1 := (fun x v => Host.reduce IntOp.andi x v reducesTo_S192x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_v63 main_v67

def fn_part2 {F : FTy → Type} [FloatOps F] (main_arg9 : FVec F S64 .f32) (main_arg10 : FVec F S64x64 .f32) (main_arg11 : FVec F S64 .f32) (main_arg12 : FVec F S192x64 .f32) (main_arg13 : FVec F S64 .f32) (main_arg14 : FVec F S64x64 .f32) (main_arg15 : FVec F S64 .f32) (main_arg16 : FVec F S192x64 .f32) (main_arg17 : FVec F S64 .f32) (main_arg18 : FVec F S64x64 .f32) (main_arg19 : FVec F S64 .f32) (main_arg20 : FVec F S64x64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S192x64 .f32 := Host.absf main_arg12
  let main_cst_18 : FVec F S_ .f32 := constant S_ .f32 0x7F800000#32
  let main_v50 : FVec F S192x64 .f32 := broadcastInDim S192x64 ![] bcast_S_S192x64 main_cst_18
  fn_part3 (F := F) main_arg13 main_arg14 main_arg15 main_arg16 main_arg17 main_arg18 main_arg19 main_arg20 main_v48 main_v49 main_v50

def fn_part1 {F : FTy → Type} [FloatOps F] (main_arg6 : FVec F S64x64 .f32) (main_arg7 : FVec F S64 .f32) (main_arg8 : FVec F S192x64 .f32) (main_arg9 : FVec F S64 .f32) (main_arg10 : FVec F S64x64 .f32) (main_arg11 : FVec F S64 .f32) (main_arg12 : FVec F S192x64 .f32) (main_arg13 : FVec F S64 .f32) (main_arg14 : FVec F S64x64 .f32) (main_arg15 : FVec F S64 .f32) (main_arg16 : FVec F S192x64 .f32) (main_arg17 : FVec F S64 .f32) (main_arg18 : FVec F S64x64 .f32) (main_arg19 : FVec F S64 .f32) (main_arg20 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x64 .f32 := Host.absf main_arg8
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S30000x64 .f32) (main_arg1 : FVec F S480000x64 .f32) (main_arg2 : IVec S480000 32) (main_arg3 : IVec S480000 32) (main_arg4 : FVec F S192x64 .f32) (main_arg5 : FVec F S64 .f32) (main_arg6 : FVec F S64x64 .f32) (main_arg7 : FVec F S64 .f32) (main_arg8 : FVec F S192x64 .f32) (main_arg9 : FVec F S64 .f32) (main_arg10 : FVec F S64x64 .f32) (main_arg11 : FVec F S64 .f32) (main_arg12 : FVec F S192x64 .f32) (main_arg13 : FVec F S64 .f32) (main_arg14 : FVec F S64x64 .f32) (main_arg15 : FVec F S64 .f32) (main_arg16 : FVec F S192x64 .f32) (main_arg17 : FVec F S64 .f32) (main_arg18 : FVec F S64x64 .f32) (main_arg19 : FVec F S64 .f32) (main_arg20 : FVec F S64x64 .f32) : IVec S_ 1 :=
  let main_v0 : FVec F S30000x64 .f32 := Host.absf main_arg0
  let main_cst : FVec F S_ .f32 := constant S_ .f32 0x7F800000#32
  let main_v1 : FVec F S30000x64 .f32 := broadcastInDim S30000x64 ![] bcast_S_S30000x64 main_cst
  let main_v2 : IVec S30000x64 1 := cmpf .olt main_v0 main_v1
  let main_c : IVec S_ 1 := constantI S_ 1 1#1
  let main_v3 : IVec S_ 1 := (fun x v => Host.reduce IntOp.andi x v reducesTo_S30000x64_S_d0_1 h_S_) main_v2 main_c
  let main_v4 : FVec F S480000x64 .f32 := Host.absf main_arg1
  let main_cst_0 : FVec F S_ .f32 := constant S_ .f32 0x7F800000#32
  let main_v5 : FVec F S480000x64 .f32 := broadcastInDim S480000x64 ![] bcast_S_S480000x64 main_cst_0
  let main_v6 : IVec S480000x64 1 := cmpf .olt main_v4 main_v5
  let main_c_1 : IVec S_ 1 := constantI S_ 1 1#1
  let main_v7 : IVec S_ 1 := (fun x v => Host.reduce IntOp.andi x v reducesTo_S480000x64_S_d0_1 h_S_) main_v6 main_c_1
  let main_v8 : IVec S_ 1 := andi main_v3 main_v7
  let main_v9 : FVec F S192x64 .f32 := Host.absf main_arg4
  let main_cst_2 : FVec F S_ .f32 := constant S_ .f32 0x7F800000#32
  let main_v10 : FVec F S192x64 .f32 := broadcastInDim S192x64 ![] bcast_S_S192x64 main_cst_2
  let main_v11 : IVec S192x64 1 := cmpf .olt main_v9 main_v10
  let main_c_3 : IVec S_ 1 := constantI S_ 1 1#1
  let main_v12 : IVec S_ 1 := (fun x v => Host.reduce IntOp.andi x v reducesTo_S192x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S30000x64 : Shape := ⟨2, ![30000, 64]⟩
abbrev S480000x64 : Shape := ⟨2, ![480000, 64]⟩
abbrev S480000 : Shape := ⟨1, ![480000]⟩
abbrev S192x64 : Shape := ⟨2, ![192, 64]⟩
abbrev S64 : Shape := ⟨1, ![64]⟩
abbrev S64x64 : Shape := ⟨2, ![64, 64]⟩
abbrev S_ : Shape := ⟨0, ![]⟩
abbrev S480000x1 : Shape := ⟨2, ![480000, 1]⟩
abbrev S4800x64 : Shape := ⟨2, ![4800, 64]⟩
abbrev S4800x192 : Shape := ⟨2, ![4800, 192]⟩
abbrev S1x64 : Shape := ⟨2, ![1, 64]⟩

abbrev nBuf : Space → Nat
  | .hbm => 47
  | .vmem => 26
  | .smem => 0
  | _ => 0

abbrev bufTy : (tb : Table) → Fin (tcTables nBuf tb) → BufTy
  | .hbm, ⟨0, _⟩ => ⟨S30000x64, .f32⟩
  | .hbm, ⟨1, _⟩ => ⟨S480000x64, .f32⟩
  | .hbm, ⟨2, _⟩ => ⟨S480000, .i32⟩
  | .hbm, ⟨3, _⟩ => ⟨S480000, .i32⟩
  | .hbm, ⟨4, _⟩ => ⟨S192x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S192x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S192x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S192x64, .f32⟩
  | .hbm, ⟨17, _⟩ => ⟨S64, .f32⟩
  | .hbm, ⟨18, _⟩ => ⟨S64x64, .f32⟩
  | .hbm, ⟨19, _⟩ => ⟨S64, .f32⟩
  | .hbm, ⟨20, _⟩ => ⟨S64x64, .f32⟩
  | .hbm, ⟨21, _⟩ => ⟨S_, .i32⟩
  | .hbm, ⟨22, _⟩ => ⟨S480000, .i32⟩
  | .hbm, ⟨23, _⟩ => ⟨S480000, .i1⟩
  | .hbm, ⟨24, _⟩ => ⟨S_, .i32⟩
  | .hbm, ⟨25, _⟩ => ⟨S480000, .i32⟩
  | .hbm, ⟨26, _⟩ => ⟨S480000, .i32⟩
  | .hbm, ⟨27, _⟩ => ⟨S480000, .i32⟩
  | .hbm, ⟨28, _⟩ => ⟨S480000x1, .i32⟩
  | .hbm, ⟨29, _⟩ => ⟨S480000x64, .f32⟩
  | .hbm, ⟨30, _⟩ => ⟨S_, .i32⟩
  | .hbm, ⟨31, _⟩ => ⟨S480000, .i32⟩
  | .hbm, ⟨32, _⟩ => ⟨S480000, .i1⟩
  | .hbm, ⟨33, _⟩ => ⟨S_, .i32⟩
  | .hbm, ⟨34, _⟩ => ⟨S480000, .i32⟩
  | .hbm, ⟨35, _⟩ => ⟨S480000, .i32⟩
  | .hbm, ⟨36, _⟩ => ⟨S480000, .i32⟩
  | .hbm, ⟨37, _⟩ => ⟨S480000x1, .i32⟩
  | .hbm, ⟨38, _⟩ => ⟨S480000x64, .f32⟩
  | .hbm, ⟨39, _⟩ => ⟨S480000x64, .f32⟩
  | .hbm, ⟨40, _⟩ => ⟨S480000x64, .f32⟩
  | .hbm, ⟨41, _⟩ => ⟨S_, .f32⟩
  | .hbm, ⟨42, _⟩ => ⟨S30000x64, .f32⟩
  | .hbm, ⟨43, _⟩ => ⟨S480000x1, .i32⟩
  | .hbm, ⟨44, _⟩ => ⟨S30000x64, .f32⟩
  | .hbm, ⟨45, _⟩ => ⟨S30000x64, .f32⟩
  | .hbm, ⟨46, _⟩ => ⟨S30000x64, .f32⟩
  | .local _ .vmem, ⟨0, _⟩ => ⟨S4800x64, .f32⟩
  | .local _ .vmem, ⟨1, _⟩ => ⟨S4800x64, .f32⟩
  | .local _ .vmem, ⟨2, _⟩ => ⟨S4800x64, .f32⟩
  | .local _ .vmem, ⟨3, _⟩ => ⟨S4800x64, .f32⟩
  | .local _ .vmem, ⟨4, _⟩ => ⟨S4800x64, .f32⟩
  | .local _ .vmem, ⟨5, _⟩ => ⟨S4800x64, .f32⟩
  | .local _ .vmem, ⟨6, _⟩ => ⟨S192x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S192x64, .f32⟩
  | .local _ .vmem, ⟨11, _⟩ => ⟨S64, .f32⟩
  | .local _ .vmem, ⟨12, _⟩ => ⟨S64x64, .f32⟩
  | .local _ .vmem, ⟨13, _⟩ => ⟨S64, .f32⟩
  | .local _ .vmem, ⟨14, _⟩ => ⟨S192x64, .f32⟩
  | .local _ .vmem, ⟨15, _⟩ => ⟨S64, .f32⟩
  | .local _ .vmem, ⟨16, _⟩ => ⟨S64x64, .f32⟩
  | .local _ .vmem, ⟨17, _⟩ => ⟨S64, .f32⟩
  | .local _ .vmem, ⟨18, _⟩ => ⟨S192x64, .f32⟩
  | .local _ .vmem, ⟨19, _⟩ => ⟨S64, .f32⟩
  | .local _ .vmem, ⟨20, _⟩ => ⟨S64x64, .f32⟩
  | .local _ .vmem, ⟨21, _⟩ => ⟨S64, .f32⟩
  | .local _ .vmem, ⟨22, _⟩ => ⟨S4800x64, .f32⟩
  | .local _ .vmem, ⟨23, _⟩ => ⟨S4800x64, .f32⟩
  | .local _ .vmem, ⟨24, _⟩ => ⟨S4800x64, .f32⟩
  | .local _ .vmem, ⟨25, _⟩ => ⟨S4800x64, .f32⟩
  | _, _ => ⟨S30000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14_0 : Ref sig .tc := ⟨.hbm, 39, rfl⟩
abbrev main_v14_1 : Ref sig .tc := ⟨.hbm, 40, rfl⟩
abbrev main_cst : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23
abbrev cc0_sem20_0 : DmaSem sig := 24
abbrev cc0_sem20_1 : DmaSem sig := 25

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4800x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4800x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4800x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S192x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S192x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S192x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S4800x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S4800x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  bcast_S_S480000 : S_.BroadcastsInDim S480000 (![] : Fin 0 → Fin S480000.rank)
  bcast_S480000_S480000x1_0 : S480000.BroadcastsInDim S480000x1 (![0] : Fin 1 → Fin S480000x1.rank)
  inb_S4800x64_S4800x64_0_0 : ∀ a, (![0, 0] : Fin 2 → Nat) a + S4800x64.size a ≤ S4800x64.size a
  h_S4800x64 : 0 < S4800x64.numel
  shapeCasts_S4800x64_S4800x64 : S4800x64.ShapeCasts S4800x64
  concatenates_S4800x64_S4800x64_S4800x64_S4800x192_d1 : Shape.Concatenates [S4800x64, S4800x64, S4800x64] S4800x192 1
  bitsLt_bf16_f32 : FTy.bits .bf16 < FTy.bits .f32
  inb_S192x64_S192x64_0_0 : ∀ a, (![0, 0] : Fin 2 → Nat) a + S192x64.size a ≤ S192x64.size a
  h_S192x64 : 0 < S192x64.numel
  inb_S64_S64_0 : ∀ a, (![0] : Fin 1 → Nat) a + S64.size a ≤ S64.size a
  h_S64 : 0 < S64.numel
  inb_S64x64_S64x64_0_0 : ∀ a, (![0, 0] : Fin 2 → Nat) a + S64x64.size a ≤ S64x64.size a
  h_S64x64 : 0 < S64x64.numel
  shapeCasts_S64_S1x64 : S64.ShapeCasts S1x64
  broadcasts_S1x64_S4800x64 : S1x64.Broadcasts S4800x64
  bcast_S_S30000x64 : S_.BroadcastsInDim S30000x64 (![] : Fin 0 → Fin S30000x64.rank)
  gather_S30000x64_S480000x1_S480000x64_1_0_n_n_0_1_164_wf : GatherDims.WF S30000x64 S480000x1 S480000x64 [1] [0] [] [0] [] 1 ![1, 64]
  dot_S4800x192_S192x64_S4800x64_1_0_0_1_n_n_wf : DotDims.WF S4800x192 S192x64 S4800x64 [1] [0] [0] [1] [] []
  dot_S4800x64_S64x64_S4800x64_1_0_0_1_n_n_wf : DotDims.WF S4800x64 S64x64 S4800x64 [1] [0] [0] [1] [] []
  scatter_S30000x64_S480000x1_S480000x64_1_0_0_1_wf : ScatterDims.WF S30000x64 S480000x1 S480000x64 [1] [0] [0] 1
  dot_S30000x64_S64x64_S30000x64_1_0_0_1_n_n_wf : DotDims.WF S30000x64 S64x64 S30000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4800x64.size a ≤ S480000x64.size a
  hwx0_0 : ∀ i : grid0.Coords, EltTy.bits .f32 = 32 ∨ (Rect.block (s := S480000x64) S4800x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4800x64.size a ≤ S480000x64.size a
  hwx0_1 : ∀ i : grid0.Coords, EltTy.bits .f32 = 32 ∨ (Rect.block (s := S480000x64) S4800x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4800x64.size a ≤ S480000x64.size a
  hwx0_2 : ∀ i : grid0.Coords, EltTy.bits .f32 = 32 ∨ (Rect.block (s := S480000x64) S4800x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x64.size a ≤ S192x64.size a
  hwx0_3 : ∀ i : grid0.Coords, EltTy.bits .f32 = 32 ∨ (Rect.block (s := S192x64) S192x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S192x64.size a ≤ S192x64.size a
  hwx0_7 : ∀ i : grid0.Coords, EltTy.bits .f32 = 32 ∨ (Rect.block (s := S192x64) S192x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S192x64.size a ≤ S192x64.size a
  hwx0_11 : ∀ i : grid0.Coords, EltTy.bits .f32 = 32 ∨ (Rect.block (s := S192x64) S192x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x64.size a ≤ S64x64.size a
  hwx0_13 : ∀ i : grid0.Coords, EltTy.bits .f32 = 32 ∨ (Rect.block (s := S64x64) S64x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64.size a ≤ S64.size a
  hwx0_14 : ∀ i : grid0.Coords, EltTy.bits .f32 = 32 ∨ (Rect.block (s := S64) S64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S192x64.size a ≤ S192x64.size a
  hwx0_15 : ∀ i : grid0.Coords, EltTy.bits .f32 = 32 ∨ (Rect.block (s := S192x64) S192x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S64.size a ≤ S64.size a
  hwx0_16 : ∀ i : grid0.Coords, EltTy.bits .f32 = 32 ∨ (Rect.block (s := S64) S64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S64x64.size a ≤ S64x64.size a
  hwx0_17 : ∀ i : grid0.Coords, EltTy.bits .f32 = 32 ∨ (Rect.block (s := S64x64) S64x64.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S64.size a ≤ S64.size a
  hwx0_18 : ∀ i : grid0.Coords, EltTy.bits .f32 = 32 ∨ (Rect.block (s := S64) S64.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S4800x64.size a ≤ S480000x64.size a
  hwx0_19 : ∀ i : grid0.Coords, EltTy.bits .f32 = 32 ∨ (Rect.block (s := S480000x64) S4800x64.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S4800x64.size a ≤ S480000x64.size a
  hwx0_20 : ∀ i : grid0.Coords, EltTy.bits .f32 = 32 ∨ (Rect.block (s := S480000x64) S4800x64.size (cc0_transform_20 i) (hinb0_20 i)).WholeWords (EltTy.packing .f32)

variable [Facts₀]

def gather_S30000x64_S480000x1_S480000x64_1_0_n_n_0_1_164 : GatherDims S30000x64 S480000x1 S480000x64 where
  offsetDims := [1]
  collapsedSliceDims := [0]
  operandBatchingDims := []
  startIndicesBatchingDims := []
  startIndexMap := [0]
  indexVectorDim := 1
  sliceSizes := ![1, 64]
  wf := gather_S30000x64_S480000x1_S480000x64_1_0_n_n_0_1_164_wf
def dot_S4800x192_S192x64_S4800x64_1_0_0_1_n_n : DotDims S4800x192 S192x64 S4800x64 where
  lhsContracting := [1]
  rhsContracting := [0]
  lhsNonContracting := [0]
  rhsNonContracting := [1]
  lhsBatch := []
  rhsBatch := []
  wf := dot_S4800x192_S192x64_S4800x64_1_0_0_1_n_n_wf
def dot_S4800x64_S64x64_S4800x64_1_0_0_1_n_n : DotDims S4800x64 S64x64 S4800x64 where
  lhsContracting := [1]
  rhsContracting := [0]
  lhsNonContracting := [0]
  rhsNonContracting := [1]
  lhsBatch := []
  rhsBatch := []
  wf := dot_S4800x64_S64x64_S4800x64_1_0_0_1_n_n_wf
def scatter_S30000x64_S480000x1_S480000x64_1_0_0_1 : ScatterDims S30000x64 S480000x1 S480000x64 where
  updateWindowDims := [1]
  insertedWindowDims := [0]
  scatterDimsToOperandDims := [0]
  indexVectorDim := 1
  wf := scatter_S30000x64_S480000x1_S480000x64_1_0_0_1_wf
def dot_S30000x64_S64x64_S30000x64_1_0_0_1_n_n : DotDims S30000x64 S64x64 S30000x64 where
  lhsContracting := [1]
  rhsContracting := [0]
  lhsNonContracting := [0]
  rhsNonContracting := [1]
  lhsBatch := []
  rhsBatch := []
  wf := dot_S30000x64_S64x64_S30000x64_1_0_0_1_n_n_wf

abbrev win0_0 : Pipeline.Window sig grid0 :=
  Pipeline.Window.ofSpec (Memref.whole main_v6) S4800x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4800x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4800x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S192x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S192x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S192x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S64x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg16) S192x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg17) S64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg18) S64x64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg19) S64.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v14_0) S4800x64.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v14_1) S4800x64.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S30000x64 : Shape := ⟨2, ![30000, 64]⟩
abbrev S480000x64 : Shape := ⟨2, ![480000, 64]⟩
abbrev S480000 : Shape := ⟨1, ![480000]⟩
abbrev S192x64 : Shape := ⟨2, ![192, 64]⟩
abbrev S64 : Shape := ⟨1, ![64]⟩
abbrev S64x64 : Shape := ⟨2, ![64, 64]⟩
abbrev S_ : Shape := ⟨0, ![]⟩
abbrev S480000x1 : Shape := ⟨2, ![480000, 1]⟩
abbrev S480000x192 : Shape := ⟨2, ![480000, 192]⟩
abbrev S1x64 : Shape := ⟨2, ![1, 64]⟩

abbrev nBuf : Space → Nat
  | .hbm => 152
  | .vmem => 0
  | .smem => 0
  | _ => 0

abbrev hbmTy0_0 (i : Nat) : BufTy := match i % 128 with
  | 0 => ⟨S30000x64, .f32⟩
  | 1 => ⟨S480000x64, .f32⟩
  | 2 => ⟨S480000, .i32⟩
  | 3 => ⟨S480000, .i32⟩
  | 4 => ⟨S192x64, .f32⟩
  | 5 => ⟨S64, .f32⟩
  | 6 => ⟨S64x64, .f32⟩
  | 7 => ⟨S64, .f32⟩
  | 8 => ⟨S192x64, .f32⟩
  | 9 => ⟨S64, .f32⟩
  | 10 => ⟨S64x64, .f32⟩
  | 11 => ⟨S64, .f32⟩
  | 12 => ⟨S192x64, .f32⟩
  | 13 => ⟨S64, .f32⟩
  | 14 => ⟨S64x64, .f32⟩
  | 15 => ⟨S64, .f32⟩
  | 16 => ⟨S192x64, .f32⟩
  | 17 => ⟨S64, .f32⟩
  | 18 => ⟨S64x64, .f32⟩
  | 19 => ⟨S64, .f32⟩
  | 20 => ⟨S64x64, .f32⟩
  | 21 => ⟨S_, .i32⟩
  | 22 => ⟨S480000, .i32⟩
  | 23 => ⟨S480000, .i1⟩
  | 24 => ⟨S_, .i32⟩
  | 25 => ⟨S480000, .i32⟩
  | 26 => ⟨S480000, .i32⟩
  | 27 => ⟨S480000, .i32⟩
  | 28 => ⟨S480000x1, .i32⟩
  | 29 => ⟨S480000x64, .f32⟩
  | 30 => ⟨S_, .i32⟩
  | 31 => ⟨S480000, .i32⟩
  | 32 => ⟨S480000, .i1⟩
  | 33 => ⟨S_, .i32⟩
  | 34 => ⟨S480000, .i32⟩
  | 35 => ⟨S480000, .i32⟩
  | 36 => ⟨S480000, .i32⟩
  | 37 => ⟨S480000x1, .i32⟩
  | 38 => ⟨S480000x64, .f32⟩
  | 39 => ⟨S480000x192, .f32⟩
  | 40 => ⟨S480000x64, .f32⟩
  | 41 => ⟨S1x64, .f32⟩
  | 42 => ⟨S480000x64, .f32⟩
  | 43 => ⟨S480000x64, .f32⟩
  | 44 => ⟨S480000x64, .f32⟩
  | 45 => ⟨S480000x64, .f32⟩
  | 46 => ⟨S_, .f32⟩
  | 47 => ⟨S480000x64, .f32⟩
  | 48 => ⟨S480000x64, .f32⟩
  | 49 => ⟨S_, .f32⟩
  | 50 => ⟨S480000x64, .f32⟩
  | 51 => ⟨S480000x64, .f32⟩
  | 52 => ⟨S480000x64, .f32⟩
  | 53 => ⟨S480000x64, .f32⟩
  | 54 => ⟨S1x64, .f32⟩
  | 55 => ⟨S480000x64, .f32⟩
  | 56 => ⟨S480000x64, .f32⟩
  | 57 => ⟨S480000x64, .f32⟩
  | 58 => ⟨S480000x64, .f32⟩
  | 59 => ⟨S_, .f32⟩
  | 60 => ⟨S480000x64, .f32⟩
  | 61 => ⟨S480000x64, .f32⟩
  | 62 => ⟨S_, .f32⟩
  | 63 => ⟨S480000x64, .f32⟩
  | 64 => ⟨S480000x64, .f32⟩
  | 65 => ⟨S480000x64, .f32⟩
  | 66 => ⟨S480000x64, .f32⟩
  | 67 => ⟨S1x64, .f32⟩
  | 68 => ⟨S480000x64, .f32⟩
  | 69 => ⟨S480000x64, .f32⟩
  | 70 => ⟨S480000x64, .f32⟩
  | 71 => ⟨S480000x64, .f32⟩
  | 72 => ⟨S_, .f32⟩
  | 73 => ⟨S480000x64, .f32⟩
  | 74 => ⟨S480000x64, .f32⟩
  | 75 => ⟨S_, .f32⟩
  | 76 => ⟨S480000x64, .f32⟩
  | 77 => ⟨S480000x64, .f32⟩
  | 78 => ⟨S480000x64, .f32⟩
  | 79 => ⟨S480000x64, .f32⟩
  | 80 => ⟨S1x64, .f32⟩
  | 81 => ⟨S480000x64, .f32⟩
  | 82 => ⟨S480000x64, .f32⟩
  | 83 => ⟨S480000x64, .f32⟩
  | 84 => ⟨S480000x64, .f32⟩
  | 85 => ⟨S_, .f32⟩
  | 86 => ⟨S480000x64, .f32⟩
  | 87 => ⟨S480000x64, .f32⟩
  | 88 => ⟨S_, .f32⟩
  | 89 => ⟨S480000x64, .f32⟩
  | 90 => ⟨S480000x64, .f32⟩
  | 91 => ⟨S480000x64, .f32⟩
  | 92 => ⟨S480000x64, .f32⟩
  | 93 => ⟨S480000x192, .f32⟩
  | 94 => ⟨S480000x64, .f32⟩
  | 95 => ⟨S1x64, .f32⟩
  | 96 => ⟨S480000x64, .f32⟩
  | 97 => ⟨S480000x64, .f32⟩
  | 98 => ⟨S480000x64, .f32⟩
  | 99 => ⟨S480000x64, .f32⟩
  | 100 => ⟨S_, .f32⟩
  | 101 => ⟨S480000x64, .f32⟩
  | 102 => ⟨S480000x64, .f32⟩
  | 103 => ⟨S_, .f32⟩
  | 104 => ⟨S480000x64, .f32⟩
  | 105 => ⟨S480000x64, .f32⟩
  | 106 => ⟨S480000x64, .f32⟩
  | 107 => ⟨S480000x64, .f32⟩
  | 108 => ⟨S1x64, .f32⟩
  | 109 => ⟨S480000x64, .f32⟩
  | 110 => ⟨S480000x64, .f32⟩
  | 111 => ⟨S480000x64, .f32⟩
  | 112 => ⟨S480000x64, .f32⟩
  | 113 => ⟨S_, .f32⟩
  | 114 => ⟨S480000x64, .f32⟩
  | 115 => ⟨S480000x64, .f32⟩
  | 116 => ⟨S_, .f32⟩
  | 117 => ⟨S480000x64, .f32⟩
  | 118 => ⟨S480000x64, .f32⟩
  | 119 => ⟨S480000x64, .f32⟩
  | 120 => ⟨S480000x64, .f32⟩
  | 121 => ⟨S1x64, .f32⟩
  | 122 => ⟨S480000x64, .f32⟩
  | 123 => ⟨S480000x64, .f32⟩
  | 124 => ⟨S480000x64, .f32⟩
  | 125 => ⟨S480000x64, .f32⟩
  | 126 => ⟨S_, .f32⟩
  | 127 => ⟨S480000x64, .f32⟩
  | _ => ⟨S30000x64, .f32⟩

abbrev hbmTy0_1 (i : Nat) : BufTy := match i % 128 with
  | 0 => ⟨S480000x64, .f32⟩
  | 1 => ⟨S_, .f32⟩
  | 2 => ⟨S480000x64, .f32⟩
  | 3 => ⟨S480000x64, .f32⟩
  | 4 => ⟨S480000x64, .f32⟩
  | 5 => ⟨S480000x64, .f32⟩
  | 6 => ⟨S1x64, .f32⟩
  | 7 => ⟨S480000x64, .f32⟩
  | 8 => ⟨S480000x64, .f32⟩
  | 9 => ⟨S480000x64, .f32⟩
  | 10 => ⟨S480000x64, .f32⟩
  | 11 => ⟨S_, .f32⟩
  | 12 => ⟨S480000x64, .f32⟩
  | 13 => ⟨S480000x64, .f32⟩
  | 14 => ⟨S_, .f32⟩
  | 15 => ⟨S480000x64, .f32⟩
  | 16 => ⟨S480000x64, .f32⟩
  | 17 => ⟨S480000x64, .f32⟩
  | 18 => ⟨S_, .f32⟩
  | 19 => ⟨S30000x64, .f32⟩
  | 20 => ⟨S480000x1, .i32⟩
  | 21 => ⟨S30000x64, .f32⟩
  | 22 => ⟨S30000x64, .f32⟩
  | 23 => ⟨S30000x64, .f32⟩
  | _ => ⟨S30000x64, .f32⟩

abbrev hbmTy (i : Nat) : BufTy := match i / 128 with
  | 0 => hbmTy0_0 i
  | 1 => hbmTy0_1 i
  | _ => ⟨S30000x64, .f32⟩

abbrev bufTy : (tb : Table) → Fin (tcTables nBuf tb) → BufTy
  | .hbm, ⟨i, _⟩ => hbmTy i
  | _, _ => ⟨S30000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_call2_v0 : Ref sig .tc := ⟨.hbm, 70, rfl⟩
abbrev main_call2_v1 : Ref sig .tc := ⟨.hbm, 71, rfl⟩
abbrev main_call2_cst : Ref sig .tc := ⟨.hbm, 72, rfl⟩
abbrev main_call2_v2 : Ref sig .tc := ⟨.hbm, 73, rfl⟩
abbrev main_call2_v3 : Ref sig .tc := ⟨.hbm, 74, rfl⟩
abbrev main_call2_cst_0 : Ref sig .tc := ⟨.hbm, 75, rfl⟩
abbrev main_call2_v4 : Ref sig .tc := ⟨.hbm, 76, rfl⟩
abbrev main_call2_v5 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_cst : Ref sig .tc := ⟨.hbm, 85, rfl⟩
abbrev main_v36 : Ref sig .tc := ⟨.hbm, 86, rfl⟩
abbrev main_v37 : Ref sig .tc := ⟨.hbm, 87, rfl⟩
abbrev main_cst_3 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_call3_v0 : Ref sig .tc := ⟨.hbm, 98, rfl⟩
abbrev main_call3_v1 : Ref sig .tc := ⟨.hbm, 99, rfl⟩
abbrev main_call3_cst : Ref sig .tc := ⟨.hbm, 100, rfl⟩
abbrev main_call3_v2 : Ref sig .tc := ⟨.hbm, 101, rfl⟩
abbrev main_call3_v3 : Ref sig .tc := ⟨.hbm, 102, rfl⟩
abbrev main_call3_cst_0 : Ref sig .tc := ⟨.hbm, 103, rfl⟩
abbrev main_call3_v4 : Ref sig .tc := ⟨.hbm, 104, rfl⟩
abbrev main_call3_v5 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_call4_v0 : Ref sig .tc := ⟨.hbm, 111, rfl⟩
abbrev main_call4_v1 : Ref sig .tc := ⟨.hbm, 112, rfl⟩
abbrev main_call4_cst : Ref sig .tc := ⟨.hbm, 113, rfl⟩
abbrev main_call4_v2 : Ref sig .tc := ⟨.hbm, 114, rfl⟩
abbrev main_call4_v3 : Ref sig .tc := ⟨.hbm, 115, rfl⟩
abbrev main_call4_cst_0 : Ref sig .tc := ⟨.hbm, 116, rfl⟩
abbrev main_call4_v4 : Ref sig .tc := ⟨.hbm, 117, rfl⟩
abbrev main_call4_v5 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_call5_v0 : Ref sig .tc := ⟨.hbm, 124, rfl⟩
abbrev main_call5_v1 : Ref sig .tc := ⟨.hbm, 125, rfl⟩
abbrev main_call5_cst : Ref sig .tc := ⟨.hbm, 126, rfl⟩
abbrev main_call5_v2 : Ref sig .tc := ⟨.hbm, 127, rfl⟩
abbrev main_call5_v3 : Ref sig .tc := ⟨.hbm, 128, rfl⟩
abbrev main_call5_cst_0 : Ref sig .tc := ⟨.hbm, 129, rfl⟩
abbrev main_call5_v4 : Ref sig .tc := ⟨.hbm, 130, rfl⟩
abbrev main_call5_v5 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_cst_4 : Ref sig .tc := ⟨.hbm, 139, rfl⟩
abbrev main_v64 : Ref sig .tc := ⟨.hbm, 140, rfl⟩
abbrev main_v65 : Ref sig .tc := ⟨.hbm, 141, rfl⟩
abbrev main_cst_5 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_cst_6 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩

abbrev nD : Nat := 1
abbrev τ : Topo := Topo.v7x

variable {F : FTy → Type} [FloatOps F]

class Facts₀ : Prop where
  bcast_S_S480000 : S_.BroadcastsInDim S480000 (![] : Fin 0 → Fin S480000.rank)
  bcast_S480000_S480000x1_0 : S480000.BroadcastsInDim S480000x1 (![0] : Fin 1 → Fin S480000x1.rank)
  concatenates_S480000x64_S480000x64_S480000x64_S480000x192_d1 : Shape.Concatenates [S480000x64, S480000x64, S480000x64] S480000x192 1
  bcast_S64_S1x64_1 : S64.BroadcastsInDim S1x64 (![1] : Fin 1 → Fin S1x64.rank)
  bcast_S1x64_S480000x64_0_1 : S1x64.BroadcastsInDim S480000x64 (![0, 1] : Fin 2 → Fin S480000x64.rank)
  bcast_S_S480000x64 : S_.BroadcastsInDim S480000x64 (![] : Fin 0 → Fin S480000x64.rank)
  bcast_S_S30000x64 : S_.BroadcastsInDim S30000x64 (![] : Fin 0 → Fin S30000x64.rank)
  gather_S30000x64_S480000x1_S480000x64_1_0_n_n_0_1_164_wf : GatherDims.WF S30000x64 S480000x1 S480000x64 [1] [0] [] [0] [] 1 ![1, 64]
  dot_S480000x192_S192x64_S480000x64_1_0_0_1_n_n_wf : DotDims.WF S480000x192 S192x64 S480000x64 [1] [0] [0] [1] [] []
  dot_S480000x64_S64x64_S480000x64_1_0_0_1_n_n_wf : DotDims.WF S480000x64 S64x64 S480000x64 [1] [0] [0] [1] [] []
  scatter_S30000x64_S480000x1_S480000x64_1_0_0_1_wf : ScatterDims.WF S30000x64 S480000x1 S480000x64 [1] [0] [0] 1
  dot_S30000x64_S64x64_S30000x64_1_0_0_1_n_n_wf : DotDims.WF S30000x64 S64x64 S30000x64 [1] [0] [0] [1] [] []

variable [Facts₀]

def gather_S30000x64_S480000x1_S480000x64_1_0_n_n_0_1_164 : GatherDims S30000x64 S480000x1 S480000x64 where
  offsetDims := [1]
  collapsedSliceDims := [0]
  operandBatchingDims := []
  startIndicesBatchingDims := []
  startIndexMap := [0]
  indexVectorDim := 1
  sliceSizes := ![1, 64]
  wf := gather_S30000x64_S480000x1_S480000x64_1_0_n_n_0_1_164_wf
def dot_S480000x192_S192x64_S480000x64_1_0_0_1_n_n : DotDims S480000x192 S192x64 S480000x64 where
  lhsContracting := [1]
  rhsContracting := [0]
  lhsNonContracting := [0]
  rhsNonContracting := [1]
  lhsBatch := []
  rhsBatch := []
  wf := dot_S480000x192_S192x64_S480000x64_1_0_0_1_n_n_wf
def dot_S480000x64_S64x64_S480000x64_1_0_0_1_n_n : DotDims S480000x64 S64x64 S480000x64 where
  lhsContracting := [1]
  rhsContracting := [0]
  lhsNonContracting := [0]
  rhsNonContracting := [1]
  lhsBatch := []
  rhsBatch := []
  wf := dot_S480000x64_S64x64_S480000x64_1_0_0_1_n_n_wf
def scatter_S30000x64_S480000x1_S480000x64_1_0_0_1 : ScatterDims S30000x64 S480000x1 S480000x64 where
  updateWindowDims := [1]
  insertedWindowDims := [0]
  scatterDimsToOperandDims := [0]
  indexVectorDim := 1
  wf := scatter_S30000x64_S480000x1_S480000x64_1_0_0_1_wf
def dot_S30000x64_S64x64_S30000x64_1_0_0_1_n_n : DotDims S30000x64 S64x64 S30000x64 where
  lhsContracting := [1]
  rhsContracting := [0]
  lhsNonContracting := [0]
  rhsNonContracting := [1]
  lhsBatch := []
  rhsBatch := []
  wf := dot_S30000x64_S64x64_S30000x64_1_0_0_1_n_n_wf

class Facts : Prop extends Facts₀ where

variable [Facts]
-- ==== Proof.Rows.lean ====
/-
  Row blocks of an edge array.

  An array over the 480000 edges, C numbers a row, is dealt to the kernel in 100 blocks of 4800 consecutive rows:
  `rows t x` is block `t` of `x`, the rows `4800 t … 4800 t + 4799`. Every operation of the gated perceptron acts row by
  row, so each commutes with taking a block of rows: the product with a weight matrix (entry (r, q) of `X W` is the sum
  over k of `X (r, k) W (k, q)`, which reads row r of `X` only), the bias laid along every row, the three feature groups
  laid side by side, and the logistic function, which the kernel applies as one operation and the host spells
  `1 / (1 + exp (-z))`: the same function of an extended real, `0` at `-∞` and `1` at `+∞` included.
-/
import Idealize.ShloMosaic.Lib.KernelVsHost
import Idealize.ShloMosaic.Lib.StackMember
import Idealize.ShloMosaic.Lib.IdealHost

noncomputable section

namespace Cert.EdgeRows

open Idealize.ShloMosaic Idealize.ShloMosaic.ValueIdx

/-- An array over all edges, `C` entries a row. -/
abbrev SE (C : Nat) : Shape := ⟨2, ![480000, C]⟩
/-- A block of 4800 rows of it. -/
abbrev SB (C : Nat) : Shape := ⟨2, ![4800, C]⟩

/-- Row `a` of block `t` is row `4800 t + a` of the array. -/
def rowAt (t : Fin 100) (a : Fin 4800) : Fin 480000 :=
  ⟨t.val * 4800 + a.val, by have := t.isLt; have := a.isLt; omega⟩

/-- Block `t` of an array over the edges: its rows `4800 t … 4800 t + 4799`. -/
def rows {α : Type} {C : Nat} (t : Fin 100) (x : (SE C).Idx → α) : (SB C).Idx → α :=
  fun y => x (ix2 (rowAt t (y 0)) (y 1))

theorem rows_apply {α : Type} {C : Nat} (t : Fin 100) (x : (SE C).Idx → α) (a : Fin 4800) (b : Fin C) :
    rows t x (ix2 a b) = x (ix2 (rowAt t a) b) := rfl

/-! ## The product with a weight matrix -/

/-- Block `t` of `X W` is (block `t` of `X`) `W`: entry (r, q) of either is `∑ k, X (4800 t + r, k) · W (k, q)`. The kernel
    multiplies the block into a zero accumulator after a change of float format, which is the identity on extended reals. -/
theorem dot_rows {K C : Nat} (t : Fin 100)
    (d₁ : DotDims (SB K) ⟨2, ![K, C]⟩ (SB C)) (d₂ : DotDims (SE K) ⟨2, ![K, C]⟩ (SE C))
    (h₁ : d₁ = DotDims.plain 4800 K C) (h₂ : d₂ = DotDims.plain 480000 K C)
    (X : FVec Ideal (SE K) .f32) (W : FVec Ideal ⟨2, ![K, C]⟩ .f32) (hb : FTy.bits .bf16 < FTy.bits .f32) :
    matmul d₁ none (truncf .bf16 (rows t X) hb) (truncf .bf16 W hb) (constant (SB C) .f32 0x00000000#32)
      = rows t (Host.dotGeneral d₂ none X W) := by
  subst h₁ h₂
  rw [matmul_zero_eq_dotGeneral]
  funext y
  obtain ⟨a, b, rfl⟩ : ∃ (a : Fin 4800) (b : Fin C), y = ix2 a b := ⟨y 0, y 1, eq_ix2 y⟩
  rw [StackMember.dotGeneral_plain_apply, rows_apply, StackMember.dotGeneral_plain_apply]
  rfl

/-! ## The bias laid along every row -/

/-- The kernel lays the bias along the 4800 rows of a block (its one-row cast, broadcast down); the host lays it along
    all 480000 rows (as a one-row matrix first). Either way entry (r, q) is `b q`, so the kernel's is a block of the host's. -/
theorem bias_rows {α : Type} (t : Fin 100) (b : (⟨1, ![64]⟩ : Shape).Idx → α)
    (h1 : (⟨1, ![64]⟩ : Shape).ShapeCasts ⟨2, ![1, 64]⟩) (hb : (⟨2, ![1, 64]⟩ : Shape).Broadcasts (SB 64))
    (hd1 : (⟨1, ![64]⟩ : Shape).BroadcastsInDim ⟨2, ![1, 64]⟩ ![1])
    (hd2 : (⟨2, ![1, 64]⟩ : Shape).BroadcastsInDim (SE 64) ![0, 1]) :
    broadcastTo (SB 64) (shapeCast ⟨2, ![1, 64]⟩ b h1) hb
      = rows t (broadcastInDim (SE 64) ![0, 1] hd2 (broadcastInDim ⟨2, ![1, 64]⟩ ![1] hd1 b)) := by
  funext y
  obtain ⟨r, q, rfl⟩ : ∃ (r : Fin 4800) (q : Fin 64), y = ix2 r q := ⟨y 0, y 1, eq_ix2 y⟩
  rw [rows_apply, broadcastInDim_oneRow_apply]
  have e1 := broadcastTo_apply (shapeCast ⟨2, ![1, 64]⟩ b h1) hb (ix2 r q) (ix2 (0 : Fin 1) q) (by
    intro a
    match a with
    | ⟨0, _⟩ => rfl
    | ⟨1, _⟩ => rfl)
  have e2 := shapeCast_apply b h1 (ix2 (0 : Fin 1) q) (ix1 q) (by
    rw [Shape.rowMajor_val_two, Shape.rowMajor_val_one]; show q.val = 0 * 64 + q.val; omega)
  have e3 := broadcastInDim_apply ![1] hd1 b (ix2 (0 : Fin 1) q) (ix1 q) (by
    intro a
    match a with
    | ⟨0, _⟩ => rfl)
  exact e1.trans (e2.trans e3.symm)

/-! ## Three feature groups side by side -/

/-- Three arrays of 64 columns laid side by side, read at (r, q): the first for `q < 64`, the second for `64 ≤ q < 128`,
    the third from 128 on, each at its own column. -/
theorem concat3_apply {α : Type} {n : Nat} (a b c : (⟨2, ![n, 64]⟩ : Shape).Idx → α)
    (h : Shape.Concatenates [(⟨2, ![n, 64]⟩ : Shape), ⟨2, ![n, 64]⟩, ⟨2, ![n, 64]⟩] ⟨2, ![n, 192]⟩ 1) (r : Fin n) (q : Fin 192) :
    concatenate ⟨2, ![n, 192]⟩ 1 [⟨⟨2, ![n, 64]⟩, a⟩, ⟨⟨2, ![n, 64]⟩, b⟩, ⟨⟨2, ![n, 64]⟩, c⟩] h (ix2 r q)
      = if h1 : q.val < 64 then a (ix2 r ⟨q.val, h1⟩)
        else if h2 : q.val < 128 then b (ix2 r ⟨q.val - 64, by omega⟩)
        else c (ix2 r ⟨q.val - 128, by have := q.isLt; omega⟩) := by
  have hq := q.isLt
  split
  · next h1 =>
    refine concatenate_apply_piece (t := ⟨2, ![n, 192]⟩) 1 [⟨⟨2, ![n, 64]⟩, a⟩, ⟨⟨2, ![n, 64]⟩, b⟩, ⟨⟨2, ![n, 64]⟩, c⟩] h (ix2 r q) 0 (Nat.zero_lt_succ _) ⟨2, ![n, 64]⟩ a rfl rfl 0 rfl (ix2 r ⟨q.val, h1⟩) ?_ ?_
    · intro b hb
      match b with
      | ⟨0, _⟩ => rfl
      | ⟨1, _⟩ => exact absurd rfl hb
    · show 0 + q.val = q.val; omega
  · next h1 =>
    split
    · next h2 =>
      refine concatenate_apply_piece (t := ⟨2, ![n, 192]⟩) 1 [⟨⟨2, ![n, 64]⟩, a⟩, ⟨⟨2, ![n, 64]⟩, b⟩, ⟨⟨2, ![n, 64]⟩, c⟩] h (ix2 r q) 1 (Nat.succ_lt_succ (Nat.zero_lt_succ _)) ⟨2, ![n, 64]⟩ b rfl rfl 64 rfl (ix2 r ⟨q.val - 64, by omega⟩) ?_ ?_
      · intro b hb
        match b with
        | ⟨0, _⟩ => rfl
        | ⟨1, _⟩ => exact absurd rfl hb
      · show 64 + (q.val - 64) = q.val; omega
    · next h2 =>
      refine concatenate_apply_piece (t := ⟨2, ![n, 192]⟩) 1 [⟨⟨2, ![n, 64]⟩, a⟩, ⟨⟨2, ![n, 64]⟩, b⟩, ⟨⟨2, ![n, 64]⟩, c⟩] h (ix2 r q) 2 (Nat.succ_lt_succ (Nat.succ_lt_succ (Nat.zero_lt_succ _))) ⟨2, ![n, 64]⟩ c rfl rfl 128 rfl (ix2 r ⟨q.val - 128, by omega⟩) ?_ ?_
      · intro b hb
        match b with
        | ⟨0, _⟩ => rfl
        | ⟨1, _⟩ => exact absurd rfl hb
      · show 128 + (q.val - 128) = q.val; omega

/-- Laying the blocks of three arrays side by side gives the block of the three arrays laid side by side. -/
theorem concat_rows {α : Type} (t : Fin 100) (a b c : (SE 64).Idx → α)
    (h₁ : Shape.Concatenates [SB 64, SB 64, SB 64] (SB 192) 1) (h₂ : Shape.Concatenates [SE 64, SE 64, SE 64] (SE 192) 1) :
    concatenate (SB 192) 1 [⟨SB 64, rows t a⟩, ⟨SB 64, rows t b⟩, ⟨SB 64, rows t c⟩] h₁
      = rows t (concatenate (SE 192) 1 [⟨SE 64, a⟩, ⟨SE 64, b⟩, ⟨SE 64, c⟩] h₂) := by
  funext y
  obtain ⟨r, q, rfl⟩ : ∃ (r : Fin 4800) (q : Fin 192), y = ix2 r q := ⟨y 0, y 1, eq_ix2 y⟩
  rw [rows_apply, concat3_apply, concat3_apply]
  split
  · rfl
  · split <;> rfl

/-! ## The logistic function -/

/-- The kernel's logistic operation on a block is the block of the host's `1 / (1 + exp (-z))`: on every extended real
    the operation IS that expression of the division and the exponential (`0` at `-∞`, `1` at `+∞`), and the pattern
    `0x3F800000` denotes the number one. -/
theorem logistic_rows (t : Fin 100) (Z : FVec Ideal (SE 64) .f32) (h0 : (⟨0, ![]⟩ : Shape).BroadcastsInDim (SE 64) ![]) :
    logistic (rows t Z)
      = rows t (Host.divf (broadcastInDim (SE 64) ![] h0 (constant (F := Ideal) ⟨0, ![]⟩ .f32 0x3F800000#32))
          (addf (broadcastInDim (SE 64) ![] h0 (constant (F := Ideal) ⟨0, ![]⟩ .f32 0x3F800000#32)) (Host.exp (Host.negf Z)))) := by
  funext y
  obtain ⟨r, q, rfl⟩ : ∃ (r : Fin 4800) (q : Fin 64), y = ix2 r q := ⟨y 0, y 1, eq_ix2 y⟩
  rw [rows_apply]
  show FloatOps.logistic (Z (ix2 (rowAt t r) q))
    = FloatOps.hostDivf (broadcastInDim (SE 64) ![] h0 (constant (F := Ideal) ⟨0, ![]⟩ .f32 0x3F800000#32) (ix2 (rowAt t r) q))
        (FloatOps.addf (broadcastInDim (SE 64) ![] h0 (constant (F := Ideal) ⟨0, ![]⟩ .f32 0x3F800000#32) (ix2 (rowAt t r) q))
          (FloatOps.hostUnary .exp (FloatOps.hostNegf (Z (ix2 (rowAt t r) q)))))
  rw [broadcastInDim_scalar_apply, constant_apply, Ideal.ofBits_one_f32]
  rfl

/-! ## The pointwise operations -/

theorem addf_rows (t : Fin 100) (A B : FVec Ideal (SE 64) .f32) : addf (rows t A) (rows t B) = rows t (addf A B) := rfl
theorem mulf_rows (t : Fin 100) (A B : FVec Ideal (SE 64) .f32) : mulf (rows t A) (rows t B) = rows t (mulf A B) := rfl

end Cert.EdgeRows

end
-- ==== Proof.EdgeValue.lean ====
/-
  The gated perceptron on a block of edges is a block of the gated perceptron on all edges.

  For an edge with source features `s`, destination features `d` and edge features `e` (64 numbers each) the layer computes
  `e' = e + gate (s ‖ e ‖ d)` with the edge weights and the message `gate (s ‖ e' ‖ d)` with the node weights, where
  `gate x = silu (silu (x W₀ + b₀) W₁ + b₁) · σ (silu (x V₀ + c₀) V₁ + c₁)`, `silu z = z · σ z` and `σ` the logistic
  function. The reference does this for all 480000 edges at once with the host's operations; the kernel does it for 4800
  rows at a time. Since every step acts on each row by itself (the lemmas on row blocks), what the kernel's body computes
  from block `t` of the three inputs is block `t` of what the reference computes: shown here for each of the body's named
  values in turn, the two stored ones last.
-/
import proofs.«153593_j60447369724157_1_alg».proof.Proof.Gen.KernelIdeal.Skeleton
import proofs.«153593_j60447369724157_1_alg».proof.Proof.Gen.ReferenceIdeal
import proofs.«153593_j60447369724157_1_alg».proof.Proof.Rows

noncomputable section

namespace Cert.EdgeValue

open Idealize.ShloMosaic Cert.EdgeRows

/-! ## The reference's stages, over all edges -/

section Host
open Cert.ReferenceIdeal Cert.ReferenceIdeal.Facts₀

/-- An array over all edges, 64 numbers a row, of extended reals. -/
abbrev Arr : Type := FVec Ideal S480000x64 .f32
abbrev Arr3 : Type := FVec Ideal S480000x192 .f32
abbrev W192 : Type := FVec Ideal S192x64 .f32
abbrev W64 : Type := FVec Ideal S64x64 .f32
abbrev B64 : Type := FVec Ideal S64 .f32

/-- The number one at every entry. -/
def one : Arr := broadcastInDim S480000x64 ![] bcast_S_S480000x64 (constant (F := Ideal) S_ .f32 0x3F800000#32)
/-- The logistic function as the host spells it, `1 / (1 + exp (-z))`, entry by entry. -/
def sigm (Z : Arr) : Arr := Host.divf one (addf one (Host.exp (Host.negf Z)))
/-- `silu z = z · σ z`. -/
def silu (Z : Arr) : Arr := mulf Z (sigm Z)
/-- A bias laid along every row. -/
def bias (b : B64) : Arr :=
  broadcastInDim S480000x64 ![0, 1] bcast_S1x64_S480000x64_0_1 (broadcastInDim S1x64 ![1] bcast_S64_S1x64_1 b)
/-- Source, edge and destination features side by side: 192 numbers a row. -/
def cat (HS E HD : Arr) : Arr3 :=
  concatenate S480000x192 1 [⟨S480000x64, HS⟩, ⟨S480000x64, E⟩, ⟨S480000x64, HD⟩] concatenates_S480000x64_S480000x64_S480000x64_S480000x192_d1
/-- `x W + b` for 192 input features, -/
def lin192 (X : Arr3) (W : W192) (b : B64) : Arr :=
  addf (Host.dotGeneral dot_S480000x192_S192x64_S480000x64_1_0_0_1_n_n none X W) (bias b)
/-- and for 64. -/
def lin64 (X : Arr) (W : W64) (b : B64) : Arr :=
  addf (Host.dotGeneral dot_S480000x64_S64x64_S480000x64_1_0_0_1_n_n none X W) (bias b)
/-- The layers branch: two linear maps, `silu` after each. -/
def layers (X : Arr3) (W0 : W192) (b0 : B64) (W1 : W64) (b1 : B64) : Arr := silu (lin64 (silu (lin192 X W0 b0)) W1 b1)
/-- The gate: two linear maps, `silu` between them, the logistic function after. -/
def gates (X : Arr3) (V0 : W192) (c0 : B64) (V1 : W64) (c1 : B64) : Arr := sigm (lin64 (silu (lin192 X V0 c0)) V1 c1)
/-- The new edge features `e + layers (s ‖ e ‖ d) · gates (s ‖ e ‖ d)`. -/
def edge (HS HD EF : Arr) (W0 : W192) (b0 : B64) (W1 : W64) (b1 : B64) (V0 : W192) (c0 : B64) (V1 : W64) (c1 : B64) : Arr :=
  addf EF (mulf (layers (cat HS EF HD) W0 b0 W1 b1) (gates (cat HS EF HD) V0 c0 V1 c1))
/-- The message `layers (s ‖ e' ‖ d) · gates (s ‖ e' ‖ d)` from the new edge features `e'`. -/
def message (HS HD E : Arr) (W0 : W192) (b0 : B64) (W1 : W64) (b1 : B64) (V0 : W192) (c0 : B64) (V1 : W64) (c1 : B64) : Arr :=
  mulf (layers (cat HS E HD) W0 b0 W1 b1) (gates (cat HS E HD) V0 c0 V1 c1)

/-- The rows of the node table the (normalised) indices name: an index below zero counts from the end. -/
def gath (NF : FVec Ideal S30000x64 .f32) (idx : IVec S480000 32) : Arr :=
  Host.gather gather_S30000x64_S480000x1_S480000x64_1_0_n_n_0_1_164 NF
    (broadcastInDim S480000x1 ![0] bcast_S480000_S480000x1_0
      (select (cmpi .slt idx (broadcastInDim S480000 ![] bcast_S_S480000 (constantI S_ 32 0#32)))
        (addi idx (broadcastInDim S480000 ![] bcast_S_S480000 (constantI S_ 32 30000#32))) idx))
/-- The node update: the messages summed into their destination nodes, times the output weights, added to the node table. -/
def aggregate (NF : FVec Ideal S30000x64 .f32) (dst : IVec S480000 32) (M : Arr) (Wout : W64) : FVec Ideal S30000x64 .f32 :=
  addf NF (Host.dotGeneral dot_S30000x64_S64x64_S30000x64_1_0_0_1_n_n none
    (Host.scatterAdd scatter_S30000x64_S480000x1_S480000x64_1_0_0_1
      (broadcastInDim S30000x64 ![] bcast_S_S30000x64 (constant (F := Ideal) S_ .f32 0x00000000#32))
      (broadcastInDim S480000x1 ![0] bcast_S480000_S480000x1_0 dst) M) Wout)

/-- The whole edge stage of the layer's arguments: gather the two ends' rows, update the edges. -/
def edgeOf (NF : FVec Ideal S30000x64 .f32) (EF : Arr) (src dst : IVec S480000 32)
    (W0 : W192) (b0 : B64) (W1 : W64) (b1 : B64) (V0 : W192) (c0 : B64) (V1 : W64) (c1 : B64) : Arr :=
  edge (gath NF src) (gath NF dst) EF W0 b0 W1 b1 V0 c0 V1 c1
/-- The whole node stage: the messages of the new edge features, summed into the nodes. -/
def nodeOf (NF : FVec Ideal S30000x64 .f32) (EF : Arr) (src dst : IVec S480000 32)
    (W0 : W192) (b0 : B64) (W1 : W64) (b1 : B64) (V0 : W192) (c0 : B64) (V1 : W64) (c1 : B64)
    (W0' : W192) (b0' : B64) (W1' : W64) (b1' : B64) (V0' : W192) (c0' : B64) (V1' : W64) (c1' : B64) (Wout : W64) :
    FVec Ideal S30000x64 .f32 :=
  aggregate NF dst
    (message (gath NF src) (gath NF dst) (edgeOf NF EF src dst W0 b0 W1 b1 V0 c0 V1 c1) W0' b0' W1' b1' V0' c0' V1' c1') Wout

end Host

/-! ## The kernel's named values on a block -/

section Kernel
open Cert.KernelIdeal Cert.KernelIdeal.Gen

variable (t : Fin 100)

/-- A change of float format is the identity on extended reals. -/
theorem truncf_id {s : Shape} (v : FVec Ideal s .f32) (h : FTy.bits .bf16 < FTy.bits .f32) :
    (truncf .bf16 v h : FVec Ideal s .bf16) = v := rfl

/-- The body's 192-wide input is the block of the three arrays side by side. -/
theorem pay4_rows (HS HD EF : Arr) :
    k0_pay4 (F := Ideal) (rows t HS) (rows t HD) (rows t EF) = truncf .bf16 (rows t (cat HS EF HD)) bitsLt_bf16_f32 := by
  unfold k0_pay4 k0_pay2 k0_pay3
  dsimp only
  rw [shapeCast_self, shapeCast_self,
    concat_rows t HS EF HD _ Cert.ReferenceIdeal.Facts₀.concatenates_S480000x64_S480000x64_S480000x64_S480000x192_d1]
  rfl

/-- Rewriting one linear map of 192 inputs on a block: the product, then the bias. -/
theorem lin192_rows (X : Arr3) (W : W192) (b : B64) :
    addf (matmul dot_S4800x192_S192x64_S4800x64_1_0_0_1_n_n none (truncf .bf16 (rows t X) bitsLt_bf16_f32) (truncf .bf16 W bitsLt_bf16_f32)
        (constant S4800x64 .f32 0x00000000#32))
      (broadcastTo S4800x64 (shapeCast S1x64 b shapeCasts_S64_S1x64) broadcasts_S1x64_S4800x64)
    = rows t (lin192 X W b) := by
  rw [dot_rows t dot_S4800x192_S192x64_S4800x64_1_0_0_1_n_n Cert.ReferenceIdeal.dot_S480000x192_S192x64_S480000x64_1_0_0_1_n_n rfl rfl X W,
    bias_rows t b _ _ Cert.ReferenceIdeal.Facts₀.bcast_S64_S1x64_1 Cert.ReferenceIdeal.Facts₀.bcast_S1x64_S480000x64_0_1]
  rfl

/-- The same for 64 inputs. -/
theorem lin64_rows (X : Arr) (W : W64) (b : B64) :
    addf (matmul dot_S4800x64_S64x64_S4800x64_1_0_0_1_n_n none (truncf .bf16 (rows t X) bitsLt_bf16_f32) (truncf .bf16 W bitsLt_bf16_f32)
        (constant S4800x64 .f32 0x00000000#32))
      (broadcastTo S4800x64 (shapeCast S1x64 b shapeCasts_S64_S1x64) broadcasts_S1x64_S4800x64)
    = rows t (lin64 X W b) := by
  rw [dot_rows t dot_S4800x64_S64x64_S4800x64_1_0_0_1_n_n Cert.ReferenceIdeal.dot_S480000x64_S64x64_S480000x64_1_0_0_1_n_n rfl rfl X W,
    bias_rows t b _ _ Cert.ReferenceIdeal.Facts₀.bcast_S64_S1x64_1 Cert.ReferenceIdeal.Facts₀.bcast_S1x64_S480000x64_0_1]
  rfl

/-- The kernel's logistic operation on a block is the block of the host's expression. -/
theorem sigm_rows (Z : Arr) : logistic (rows t Z) = rows t (sigm Z) :=
  logistic_rows t Z Cert.ReferenceIdeal.Facts₀.bcast_S_S480000x64

/-- `z · σ z` on a block. -/
theorem silu_rows (Z : Arr) : mulf (rows t Z) (logistic (rows t Z)) = rows t (silu Z) := by
  rw [sigm_rows]; rfl

/-! The body's values, in the order the body computes them. `H`, `G`, `Z`, `S` stand for whole arrays whose blocks the
    earlier values are. -/

/-- The layers branch of the edge update. -/
theorem pay6_rows (HS HD EF : Arr) (W0 : W192) (b0 : B64) (W1 : W64) (b1 : B64) :
    k0_pay6 (F := Ideal) (rows t HS) (rows t HD) (rows t EF) W0 b0 W1 b1 = rows t (layers (cat HS EF HD) W0 b0 W1 b1) := by
  unfold k0_pay6
  dsimp only
  rw [pay4_rows, lin192_rows, silu_rows, lin64_rows, silu_rows]
  rfl

/-- The hidden layer of its gate. -/
theorem pay7_rows (HS HD EF : Arr) (V0 : W192) (c0 : B64) :
    k0_pay7 (F := Ideal) (rows t HS) (rows t HD) (rows t EF) V0 c0 = rows t (silu (lin192 (cat HS EF HD) V0 c0)) := by
  unfold k0_pay7
  dsimp only
  rw [pay4_rows, lin192_rows, silu_rows]

/-- The new edge features from the two branches. -/
theorem pay8_rows (EF H G : Arr) (V1 : W64) (c1 : B64) :
    k0_pay8 (F := Ideal) (rows t EF) (k0_pay5 V1) c1 (rows t H) (rows t G)
      = rows t (addf EF (mulf H (sigm (lin64 G V1 c1)))) := by
  unfold k0_pay8 k0_pay5
  dsimp only
  rw [lin64_rows, sigm_rows]
  rfl

/-- The node update's 192-wide input: the new edge features between the source's and the destination's. -/
theorem pay9_rows (HS HD EF H G : Arr) (V1 : W64) (c1 : B64) :
    k0_pay9 (F := Ideal) (k0_pay2 (rows t HS)) (k0_pay3 (rows t HD)) (rows t EF) (k0_pay5 V1) c1 (rows t H) (rows t G)
      = truncf .bf16 (rows t (cat HS (addf EF (mulf H (sigm (lin64 G V1 c1)))) HD)) bitsLt_bf16_f32 := by
  unfold k0_pay9 k0_pay2 k0_pay3
  dsimp only
  rw [pay8_rows, shapeCast_self, shapeCast_self,
    concat_rows t HS _ HD _ Cert.ReferenceIdeal.Facts₀.concatenates_S480000x64_S480000x64_S480000x64_S480000x192_d1]
  rfl

/-- The layers branch of the message. -/
theorem pay11_rows (HS HD EF H G : Arr) (V1 : W64) (c1 : B64) (W0 : W192) (b0 : B64) (W1 : W64) (b1 : B64) :
    k0_pay11 (F := Ideal) (k0_pay2 (rows t HS)) (k0_pay3 (rows t HD)) (rows t EF) (k0_pay5 V1) c1 (rows t H) (rows t G) W0 b0 W1 b1
      = rows t (layers (cat HS (addf EF (mulf H (sigm (lin64 G V1 c1)))) HD) W0 b0 W1 b1) := by
  unfold k0_pay11
  dsimp only
  rw [pay9_rows, lin192_rows, silu_rows, lin64_rows, silu_rows]
  rfl

/-- The hidden layer of the message's gate, before its `silu`, -/
theorem pay12_rows (HS HD EF H G : Arr) (V1 : W64) (c1 : B64) (V0 : W192) (c0 : B64) :
    k0_pay12 (F := Ideal) (k0_pay2 (rows t HS)) (k0_pay3 (rows t HD)) (rows t EF) (k0_pay5 V1) c1 (rows t H) (rows t G) V0 c0
      = rows t (lin192 (cat HS (addf EF (mulf H (sigm (lin64 G V1 c1)))) HD) V0 c0) := by
  unfold k0_pay12
  dsimp only
  rw [pay9_rows, lin192_rows]

/-- and the logistic function of it. -/
theorem pay13_rows (HS HD EF H G : Arr) (V1 : W64) (c1 : B64) (V0 : W192) (c0 : B64) :
    k0_pay13 (F := Ideal) (k0_pay2 (rows t HS)) (k0_pay3 (rows t HD)) (rows t EF) (k0_pay5 V1) c1 (rows t H) (rows t G) V0 c0
      = rows t (sigm (lin192 (cat HS (addf EF (mulf H (sigm (lin64 G V1 c1)))) HD) V0 c0)) := by
  unfold k0_pay13
  dsimp only
  rw [pay12_rows, sigm_rows]

/-- The message from the two branches: `H · σ ((Z · S) V₁ + c₁)`. -/
theorem pay1_rows (H Z S : Arr) (V1 : W64) (c1 : B64) :
    k0_pay1 (F := Ideal) (k0_pay10 V1) c1 (rows t H) (rows t Z) (rows t S)
      = rows t (mulf H (sigm (lin64 (mulf Z S) V1 c1))) := by
  unfold k0_pay1 k0_pay10
  dsimp only
  rw [mulf_rows, lin64_rows, sigm_rows]
  rfl

/-! ## The two stored values -/

/-- What the body stores in the edge output's buffer is block `t` of the reference's new edge features. -/
theorem edge_rows (HS HD EF : Arr) (W0 : W192) (b0 : B64) (W1 : W64) (b1 : B64) (V0 : W192) (c0 : B64) (V1 : W64) (c1 : B64) :
    k0_pay8 (F := Ideal) (rows t EF) (k0_pay5 V1) c1 (k0_pay6 (rows t HS) (rows t HD) (rows t EF) W0 b0 W1 b1)
        (k0_pay7 (rows t HS) (rows t HD) (rows t EF) V0 c0)
      = rows t (edge HS HD EF W0 b0 W1 b1 V0 c0 V1 c1) := by
  rw [pay6_rows, pay7_rows, pay8_rows]
  rfl

/-- What it stores in the message output's buffer is block `t` of the reference's messages. -/
theorem message_rows (HS HD EF : Arr) (W0 : W192) (b0 : B64) (W1 : W64) (b1 : B64) (V0 : W192) (c0 : B64) (V1 : W64) (c1 : B64)
    (W0' : W192) (b0' : B64) (W1' : W64) (b1' : B64) (V0' : W192) (c0' : B64) (V1' : W64) (c1' : B64) :
    k0_pay1 (F := Ideal) (k0_pay10 V1') c1'
        (k0_pay11 (k0_pay2 (rows t HS)) (k0_pay3 (rows t HD)) (rows t EF) (k0_pay5 V1) c1
          (k0_pay6 (rows t HS) (rows t HD) (rows t EF) W0 b0 W1 b1) (k0_pay7 (rows t HS) (rows t HD) (rows t EF) V0 c0) W0' b0' W1' b1')
        (k0_pay12 (k0_pay2 (rows t HS)) (k0_pay3 (rows t HD)) (rows t EF) (k0_pay5 V1) c1
          (k0_pay6 (rows t HS) (rows t HD) (rows t EF) W0 b0 W1 b1) (k0_pay7 (rows t HS) (rows t HD) (rows t EF) V0 c0) V0' c0')
        (k0_pay13 (k0_pay2 (rows t HS)) (k0_pay3 (rows t HD)) (rows t EF) (k0_pay5 V1) c1
          (k0_pay6 (rows t HS) (rows t HD) (rows t EF) W0 b0 W1 b1) (k0_pay7 (rows t HS) (rows t HD) (rows t EF) V0 c0) V0' c0')
      = rows t (message HS HD (edge HS HD EF W0 b0 W1 b1 V0 c0 V1 c1) W0' b0' W1' b1' V0' c0' V1' c1') := by
  rw [pay6_rows, pay7_rows, pay11_rows, pay12_rows, pay13_rows, pay1_rows]
  rfl

end Kernel

end Cert.EdgeValue

end
-- ==== Proof.KernelValue.lean ====
/-
  What the kernel's program leaves in its two results.

  The region deals the gathered source rows, the gathered destination rows and the edge features to the body in blocks of
  4800 rows (grid point `t` gets rows `4800 t … 4800 t + 4799` of each) and every weight array whole; the body's two stores
  are blocks of the reference's new edge features and messages (the lemmas on the body's values), and point `t` writes
  them back to rows `4800 t …` of the two result arrays. The 100 blocks cover the arrays, so after the region the edge
  result holds the reference's new edge features and the message array its messages, of the arrays the region found.
  The host lines before the region are the two gathers; the lines after it sum the messages into the nodes.
-/
import proofs.«153593_j60447369724157_1_alg».proof.Proof.Gen.KernelIdeal.Frame
import proofs.«153593_j60447369724157_1_alg».proof.Proof.EdgeValue
import Idealize.ShloMosaic.Lib.StableHlo.Run

set_option maxRecDepth 16384

noncomputable section

namespace Cert.EdgeValue.OnKernel

open Idealize.ShloMosaic Idealize.ShloMosaic.TcCoe Idealize.SL.Sem Idealize.ShloMosaic.ValueIdx
open Cert.KernelIdeal Cert.KernelIdeal.Gen Cert.EdgeRows Cert.EdgeValue
open Idealize.ShloMosaic.Pipeline (Dat Cfg Window)

variable (m : (ℓ : Loc nD τ sig) → Buf (Elt Ideal) ℓ) (ρ : Dev nD → PrngReg)

/-- A grid point as a block number. -/
abbrev pt (t : Fin cfg0.N) : Fin 100 := t.cast N_0

theorem hz2 : (![0, 0] : Fin 2 → Nat) = fun _ => 0 := funext fun a => by fin_cases a <;> rfl
theorem hz1 : (![0] : Fin 1 → Nat) = fun _ => 0 := funext fun a => by fin_cases a; rfl

/-! ## Which block each window holds at a point -/

/-- The printed index maps over the grid: the three edge inputs and the two outputs move one block of rows a point;
    every weight window stays on its one block. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_19.index t (0 : Fin 2) = t.val ∧ win0_19.index t (1 : Fin 2) = 0)
    ∧ (win0_20.index t (0 : Fin 2) = t.val ∧ win0_20.index t (1 : Fin 2) = 0) :=
  (by decide +kernel : ∀ t : Fin grid0.N, _)

theorem idx_whole2 : ∀ t : Fin cfg0.N,
    (win0_3.index t (0 : Fin 2) = 0 ∧ win0_3.index t (1 : Fin 2) = 0)
    ∧ (win0_5.index t (0 : Fin 2) = 0 ∧ win0_5.index t (1 : Fin 2) = 0)
    ∧ (win0_7.index t (0 : Fin 2) = 0 ∧ win0_7.index t (1 : Fin 2) = 0)
    ∧ (win0_9.index t (0 : Fin 2) = 0 ∧ win0_9.index t (1 : Fin 2) = 0)
    ∧ (win0_11.index t (0 : Fin 2) = 0 ∧ win0_11.index t (1 : Fin 2) = 0)
    ∧ (win0_13.index t (0 : Fin 2) = 0 ∧ win0_13.index t (1 : Fin 2) = 0)
    ∧ (win0_15.index t (0 : Fin 2) = 0 ∧ win0_15.index t (1 : Fin 2) = 0)
    ∧ (win0_17.index t (0 : Fin 2) = 0 ∧ win0_17.index t (1 : Fin 2) = 0) :=
  (by decide +kernel : ∀ t : Fin grid0.N, _)

theorem idx_whole1 : ∀ t : Fin cfg0.N,
    win0_4.index t (0 : Fin 1) = 0 ∧ win0_6.index t (0 : Fin 1) = 0 ∧ win0_8.index t (0 : Fin 1) = 0
    ∧ win0_10.index t (0 : Fin 1) = 0 ∧ win0_12.index t (0 : Fin 1) = 0 ∧ win0_14.index t (0 : Fin 1) = 0
    ∧ win0_16.index t (0 : Fin 1) = 0 ∧ win0_18.index t (0 : Fin 1) = 0 :=
  (by decide +kernel : ∀ t : Fin grid0.N, _)

/-- Two indices of a two-axis array with the same coordinates read the same entry, -/
theorem same2 {α : Type} {R C : Nat} (A : (⟨2, ![R, C]⟩ : Shape).Idx → α) (e j : (⟨2, ![R, C]⟩ : Shape).Idx)
    (h0 : (e 0).val = (j 0).val) (h1 : (e 1).val = (j 1).val) : A e = A j :=
  congrArg A (funext fun a => Fin.ext (match a with | ⟨0, _⟩ => h0 | ⟨1, _⟩ => h1))
/-- and so for one axis. -/
theorem same1 {α : Type} {C : Nat} (A : (⟨1, ![C]⟩ : Shape).Idx → α) (e j : (⟨1, ![C]⟩ : Shape).Idx)
    (h0 : (e 0).val = (j 0).val) : A e = A j :=
  congrArg A (funext fun a => Fin.ext (match a with | ⟨0, _⟩ => h0))

/-! An edge window's block at point `t` is the block of rows `t` of its array: row `r` of the block is row `4800 t + r`. -/

theorem read_blk0 (t : Fin cfg0.N) (A : Arr) :
    (((cfg0.win 0).blk t).view.read (Elt Ideal) A : Vec Ideal S4800x64 .f32) = rows (pt t) A :=
  funext fun j => same2 A _ (ix2 (rowAt (pt t) (j 0)) (j 1))
    (by show win0_0.index t (0 : Fin 2) * 4800 + 1 * (j 0).val = t.val * 4800 + (j 0).val; rw [(idx_rows t).1.1]; omega)
    (by show win0_0.index t (1 : Fin 2) * 64 + 1 * (j 1).val = (j 1).val; rw [(idx_rows t).1.2]; omega)
theorem read_blk1 (t : Fin cfg0.N) (A : Arr) :
    (((cfg0.win 1).blk t).view.read (Elt Ideal) A : Vec Ideal S4800x64 .f32) = rows (pt t) A :=
  funext fun j => same2 A _ (ix2 (rowAt (pt t) (j 0)) (j 1))
    (by show win0_1.index t (0 : Fin 2) * 4800 + 1 * (j 0).val = t.val * 4800 + (j 0).val; rw [(idx_rows t).2.1.1]; omega)
    (by show win0_1.index t (1 : Fin 2) * 64 + 1 * (j 1).val = (j 1).val; rw [(idx_rows t).2.1.2]; omega)
theorem read_blk2 (t : Fin cfg0.N) (A : Arr) :
    (((cfg0.win 2).blk t).view.read (Elt Ideal) A : Vec Ideal S4800x64 .f32) = rows (pt t) A :=
  funext fun j => same2 A _ (ix2 (rowAt (pt t) (j 0)) (j 1))
    (by show win0_2.index t (0 : Fin 2) * 4800 + 1 * (j 0).val = t.val * 4800 + (j 0).val; rw [(idx_rows t).2.2.1.1]; omega)
    (by show win0_2.index t (1 : Fin 2) * 64 + 1 * (j 1).val = (j 1).val; rw [(idx_rows t).2.2.1.2]; omega)
theorem read_blk19 (t : Fin cfg0.N) (A : Arr) :
    (((cfg0.win 19).blk t).view.read (Elt Ideal) A : Vec Ideal S4800x64 .f32) = rows (pt t) A :=
  funext fun j => same2 A _ (ix2 (rowAt (pt t) (j 0)) (j 1))
    (by show win0_19.index t (0 : Fin 2) * 4800 + 1 * (j 0).val = t.val * 4800 + (j 0).val; rw [(idx_rows t).2.2.2.1.1]; omega)
    (by show win0_19.index t (1 : Fin 2) * 64 + 1 * (j 1).val = (j 1).val; rw [(idx_rows t).2.2.2.1.2]; omega)
theorem read_blk20 (t : Fin cfg0.N) (A : Arr) :
    (((cfg0.win 20).blk t).view.read (Elt Ideal) A : Vec Ideal S4800x64 .f32) = rows (pt t) A :=
  funext fun j => same2 A _ (ix2 (rowAt (pt t) (j 0)) (j 1))
    (by show win0_20.index t (0 : Fin 2) * 4800 + 1 * (j 0).val = t.val * 4800 + (j 0).val; rw [(idx_rows t).2.2.2.2.1]; omega)
    (by show win0_20.index t (1 : Fin 2) * 64 + 1 * (j 1).val = (j 1).val; rw [(idx_rows t).2.2.2.2.2]; omega)

/-! A weight window's one block is its whole array. -/

theorem read_blk3 (t : Fin cfg0.N) (A : W192) : (((cfg0.win 3).blk t).view.read (Elt Ideal) A : Vec Ideal S192x64 .f32) = A :=
  funext fun j => same2 A _ j
    (by show win0_3.index t (0 : Fin 2) * 192 + 1 * (j 0).val = (j 0).val; rw [(idx_whole2 t).1.1]; omega)
    (by show win0_3.index t (1 : Fin 2) * 64 + 1 * (j 1).val = (j 1).val; rw [(idx_whole2 t).1.2]; omega)
theorem read_blk5 (t : Fin cfg0.N) (A : W64) : (((cfg0.win 5).blk t).view.read (Elt Ideal) A : Vec Ideal S64x64 .f32) = A :=
  funext fun j => same2 A _ j
    (by show win0_5.index t (0 : Fin 2) * 64 + 1 * (j 0).val = (j 0).val; rw [(idx_whole2 t).2.1.1]; omega)
    (by show win0_5.index t (1 : Fin 2) * 64 + 1 * (j 1).val = (j 1).val; rw [(idx_whole2 t).2.1.2]; omega)
theorem read_blk7 (t : Fin cfg0.N) (A : W192) : (((cfg0.win 7).blk t).view.read (Elt Ideal) A : Vec Ideal S192x64 .f32) = A :=
  funext fun j => same2 A _ j
    (by show win0_7.index t (0 : Fin 2) * 192 + 1 * (j 0).val = (j 0).val; rw [(idx_whole2 t).2.2.1.1]; omega)
    (by show win0_7.index t (1 : Fin 2) * 64 + 1 * (j 1).val = (j 1).val; rw [(idx_whole2 t).2.2.1.2]; omega)
theorem read_blk9 (t : Fin cfg0.N) (A : W64) : (((cfg0.win 9).blk t).view.read (Elt Ideal) A : Vec Ideal S64x64 .f32) = A :=
  funext fun j => same2 A _ j
    (by show win0_9.index t (0 : Fin 2) * 64 + 1 * (j 0).val = (j 0).val; rw [(idx_whole2 t).2.2.2.1.1]; omega)
    (by show win0_9.index t (1 : Fin 2) * 64 + 1 * (j 1).val = (j 1).val; rw [(idx_whole2 t).2.2.2.1.2]; omega)
theorem read_blk11 (t : Fin cfg0.N) (A : W192) : (((cfg0.win 11).blk t).view.read (Elt Ideal) A : Vec Ideal S192x64 .f32) = A :=
  funext fun j => same2 A _ j
    (by show win0_11.index t (0 : Fin 2) * 192 + 1 * (j 0).val = (j 0).val; rw [(idx_whole2 t).2.2.2.2.1.1]; omega)
    (by show win0_11.index t (1 : Fin 2) * 64 + 1 * (j 1).val = (j 1).val; rw [(idx_whole2 t).2.2.2.2.1.2]; omega)
theorem read_blk13 (t : Fin cfg0.N) (A : W64) : (((cfg0.win 13).blk t).view.read (Elt Ideal) A : Vec Ideal S64x64 .f32) = A :=
  funext fun j => same2 A _ j
    (by show win0_13.index t (0 : Fin 2) * 64 + 1 * (j 0).val = (j 0).val; rw [(idx_whole2 t).2.2.2.2.2.1.1]; omega)
    (by show win0_13.index t (1 : Fin 2) * 64 + 1 * (j 1).val = (j 1).val; rw [(idx_whole2 t).2.2.2.2.2.1.2]; omega)
theorem read_blk15 (t : Fin cfg0.N) (A : W192) : (((cfg0.win 15).blk t).view.read (Elt Ideal) A : Vec Ideal S192x64 .f32) = A :=
  funext fun j => same2 A _ j
    (by show win0_15.index t (0 : Fin 2) * 192 + 1 * (j 0).val = (j 0).val; rw [(idx_whole2 t).2.2.2.2.2.2.1.1]; omega)
    (by show win0_15.index t (1 : Fin 2) * 64 + 1 * (j 1).val = (j 1).val; rw [(idx_whole2 t).2.2.2.2.2.2.1.2]; omega)
theorem read_blk17 (t : Fin cfg0.N) (A : W64) : (((cfg0.win 17).blk t).view.read (Elt Ideal) A : Vec Ideal S64x64 .f32) = A :=
  funext fun j => same2 A _ j
    (by show win0_17.index t (0 : Fin 2) * 64 + 1 * (j 0).val = (j 0).val; rw [(idx_whole2 t).2.2.2.2.2.2.2.1]; omega)
    (by show win0_17.index t (1 : Fin 2) * 64 + 1 * (j 1).val = (j 1).val; rw [(idx_whole2 t).2.2.2.2.2.2.2.2]; omega)

theorem read_blk4 (t : Fin cfg0.N) (A : B64) : (((cfg0.win 4).blk t).view.read (Elt Ideal) A : Vec Ideal S64 .f32) = A :=
  funext fun j => same1 A _ j (by show win0_4.index t (0 : Fin 1) * 64 + 1 * (j 0).val = (j 0).val; rw [(idx_whole1 t).1]; omega)
theorem read_blk6 (t : Fin cfg0.N) (A : B64) : (((cfg0.win 6).blk t).view.read (Elt Ideal) A : Vec Ideal S64 .f32) = A :=
  funext fun j => same1 A _ j (by show win0_6.index t (0 : Fin 1) * 64 + 1 * (j 0).val = (j 0).val; rw [(idx_whole1 t).2.1]; omega)
theorem read_blk8 (t : Fin cfg0.N) (A : B64) : (((cfg0.win 8).blk t).view.read (Elt Ideal) A : Vec Ideal S64 .f32) = A :=
  funext fun j => same1 A _ j (by show win0_8.index t (0 : Fin 1) * 64 + 1 * (j 0).val = (j 0).val; rw [(idx_whole1 t).2.2.1]; omega)
theorem read_blk10 (t : Fin cfg0.N) (A : B64) : (((cfg0.win 10).blk t).view.read (Elt Ideal) A : Vec Ideal S64 .f32) = A :=
  funext fun j => same1 A _ j (by show win0_10.index t (0 : Fin 1) * 64 + 1 * (j 0).val = (j 0).val; rw [(idx_whole1 t).2.2.2.1]; omega)
theorem read_blk12 (t : Fin cfg0.N) (A : B64) : (((cfg0.win 12).blk t).view.read (Elt Ideal) A : Vec Ideal S64 .f32) = A :=
  funext fun j => same1 A _ j (by show win0_12.index t (0 : Fin 1) * 64 + 1 * (j 0).val = (j 0).val; rw [(idx_whole1 t).2.2.2.2.1]; omega)
theorem read_blk14 (t : Fin cfg0.N) (A : B64) : (((cfg0.win 14).blk t).view.read (Elt Ideal) A : Vec Ideal S64 .f32) = A :=
  funext fun j => same1 A _ j (by show win0_14.index t (0 : Fin 1) * 64 + 1 * (j 0).val = (j 0).val; rw [(idx_whole1 t).2.2.2.2.2.1]; omega)
theorem read_blk16 (t : Fin cfg0.N) (A : B64) : (((cfg0.win 16).blk t).view.read (Elt Ideal) A : Vec Ideal S64 .f32) = A :=
  funext fun j => same1 A _ j (by show win0_16.index t (0 : Fin 1) * 64 + 1 * (j 0).val = (j 0).val; rw [(idx_whole1 t).2.2.2.2.2.2.1]; omega)
theorem read_blk18 (t : Fin cfg0.N) (A : B64) : (((cfg0.win 18).blk t).view.read (Elt Ideal) A : Vec Ideal S64 .f32) = A :=
  funext fun j => same1 A _ j (by show win0_18.index t (0 : Fin 1) * 64 + 1 * (j 0).val = (j 0).val; rw [(idx_whole1 t).2.2.2.2.2.2.2]; omega)

/-! ## The blocks the body is handed -/

section Blocks
variable (c : Dev nD) (t : Fin cfg0.N)

theorem blk0 : (iblk m c 0 t : Vec Ideal S4800x64 .f32) = rows (pt t) (V m c main_v6) := by unfold iblk; exact read_blk0 t _
theorem blk1 : (iblk m c 1 t : Vec Ideal S4800x64 .f32) = rows (pt t) (V m c main_v13) := by unfold iblk; exact read_blk1 t _
theorem blk2 : (iblk m c 2 t : Vec Ideal S4800x64 .f32) = rows (pt t) (V m c main_arg1) := by unfold iblk; exact read_blk2 t _
theorem blk3 : (iblk m c 3 t : Vec Ideal S192x64 .f32) = V m c main_arg4 := by unfold iblk; exact read_blk3 t _
theorem blk4 : (iblk m c 4 t : Vec Ideal S64 .f32) = V m c main_arg5 := by unfold iblk; exact read_blk4 t _
theorem blk5 : (iblk m c 5 t : Vec Ideal S64x64 .f32) = V m c main_arg6 := by unfold iblk; exact read_blk5 t _
theorem blk6 : (iblk m c 6 t : Vec Ideal S64 .f32) = V m c main_arg7 := by unfold iblk; exact read_blk6 t _
theorem blk7 : (iblk m c 7 t : Vec Ideal S192x64 .f32) = V m c main_arg8 := by unfold iblk; exact read_blk7 t _
theorem blk8 : (iblk m c 8 t : Vec Ideal S64 .f32) = V m c main_arg9 := by unfold iblk; exact read_blk8 t _
theorem blk9 : (iblk m c 9 t : Vec Ideal S64x64 .f32) = V m c main_arg10 := by unfold iblk; exact read_blk9 t _
theorem blk10 : (iblk m c 10 t : Vec Ideal S64 .f32) = V m c main_arg11 := by unfold iblk; exact read_blk10 t _
theorem blk11 : (iblk m c 11 t : Vec Ideal S192x64 .f32) = V m c main_arg12 := by unfold iblk; exact read_blk11 t _
theorem blk12 : (iblk m c 12 t : Vec Ideal S64 .f32) = V m c main_arg13 := by unfold iblk; exact read_blk12 t _
theorem blk13 : (iblk m c 13 t : Vec Ideal S64x64 .f32) = V m c main_arg14 := by unfold iblk; exact read_blk13 t _
theorem blk14 : (iblk m c 14 t : Vec Ideal S64 .f32) = V m c main_arg15 := by unfold iblk; exact read_blk14 t _
theorem blk15 : (iblk m c 15 t : Vec Ideal S192x64 .f32) = V m c main_arg16 := by unfold iblk; exact read_blk15 t _
theorem blk16 : (iblk m c 16 t : Vec Ideal S64 .f32) = V m c main_arg17 := by unfold iblk; exact read_blk16 t _
theorem blk17 : (iblk m c 17 t : Vec Ideal S64x64 .f32) = V m c main_arg18 := by unfold iblk; exact read_blk17 t _
theorem blk18 : (iblk m c 18 t : Vec Ideal S64 .f32) = V m c main_arg19 := by unfold iblk; exact read_blk18 t _

end Blocks

/-! ## The two result arrays after the region -/

/-- The reference's new edge features of the arrays the region finds, -/
def E (c : Dev nD) : Arr :=
  edge (V m c main_v6) (V m c main_v13) (V m c main_arg1) (V m c main_arg4) (V m c main_arg5) (V m c main_arg6) (V m c main_arg7)
    (V m c main_arg8) (V m c main_arg9) (V m c main_arg10) (V m c main_arg11)
/-- and its messages. -/
def M (c : Dev nD) : Arr :=
  message (V m c main_v6) (V m c main_v13) (E m c) (V m c main_arg12) (V m c main_arg13) (V m c main_arg14) (V m c main_arg15)
    (V m c main_arg16) (V m c main_arg17) (V m c main_arg18) (V m c main_arg19)

/-- What point `t` writes back to the edge result is block `t` of the new edge features. -/
theorem flushed19_eq (c : Dev nD) (t : Fin cfg0.N) :
    (dats m 0 c).flushed 19 t = ((cfg0.win 19).blk t).view.read (Elt Ideal) (E m c) := by
  show (cfg0.win 19).cut (grid0.coords t) ((dats m 0 c).after 19 t) = _
  rw [after0_19]
  unfold out0_19
  rw [View.canon_unit_zero hz2]
  simp only [View.ld_unit_zero (S := S4800x64) hz2, View.ld_unit_zero (S := S192x64) hz2, View.ld_unit_zero (S := S64x64) hz2,
    View.ld_unit_zero (S := S64) hz1]
  rw [blk0 m c t, blk1 m c t, blk2 m c t, blk3 m c t, blk4 m c t, blk5 m c t, blk6 m c t, blk7 m c t, blk8 m c t, blk9 m c t, blk10 m c t]
  rw [edge_rows]
  exact (read_blk19 t (E m c)).symm

/-- What it writes back to the message array is block `t` of the messages. -/
theorem flushed20_eq (c : Dev nD) (t : Fin cfg0.N) :
    (dats m 0 c).flushed 20 t = ((cfg0.win 20).blk t).view.read (Elt Ideal) (M m c) := by
  show (cfg0.win 20).cut (grid0.coords t) ((dats m 0 c).after 20 t) = _
  rw [after0_20]
  unfold out0_20
  rw [View.canon_unit_zero hz2]
  simp only [View.ld_unit_zero (S := S4800x64) hz2, View.ld_unit_zero (S := S192x64) hz2, View.ld_unit_zero (S := S64x64) hz2,
    View.ld_unit_zero (S := S64) hz1]
  rw [blk0 m c t, blk1 m c t, blk2 m c t, blk3 m c t, blk4 m c t, blk5 m c t, blk6 m c t, blk7 m c t, blk8 m c t, blk9 m c t, blk10 m c t,
    blk11 m c t, blk12 m c t, blk13 m c t, blk14 m c t, blk15 m c t, blk16 m c t, blk17 m c t, blk18 m c t]
  rw [message_rows]
  exact (read_blk20 t (M m c)).symm

/-- An index of the edge result is in point `t`'s block iff its row is one of the block's 4800. -/
theorem mem_blk19 (t : Fin cfg0.N) (i : S480000x64.Idx) :
    i ∈ ((cfg0.win 19).blk t).view.set ↔ ∀ a : Fin 2, win0_19.index t a * S4800x64.size a ≤ (i a).val ∧ (i a).val < win0_19.index t a * S4800x64.size a + S4800x64.size a := by
  show i ∈ ((View.whole main_v14_0).slice (win0_19.rect t)).set ↔ _
  rw [View.set_slice_whole, Rect.mem_set_unit]
  exact Iff.rfl
theorem mem_blk20 (t : Fin cfg0.N) (i : S480000x64.Idx) :
    i ∈ ((cfg0.win 20).blk t).view.set ↔ ∀ a : Fin 2, win0_20.index t a * S4800x64.size a ≤ (i a).val ∧ (i a).val < win0_20.index t a * S4800x64.size a + S4800x64.size a := by
  show i ∈ ((View.whole main_v14_1).slice (win0_20.rect t)).set ↔ _
  rw [View.set_slice_whole, Rect.mem_set_unit]
  exact Iff.rfl

/-- Row `r` lies in the block of point `r / 4800`: the 100 blocks cover the array. -/
theorem cover19 (i : S480000x64.Idx) : ∃ t : Fin cfg0.N, (cfg0.win 19).flush t = true ∧ i ∈ ((cfg0.win 19).blk t).view.set := by
  have hi0 : (i 0).val < 480000 := (i 0).isLt
  have hi1 : (i 1).val < 64 := (i 1).isLt
  let t : Fin cfg0.N := (⟨(i 0).val / 4800, by omega⟩ : Fin 100).cast N_0.symm
  have ht : t.val = (i 0).val / 4800 := rfl
  refine ⟨t, flush0_19 t, ?_⟩
  rw [mem_blk19]
  obtain ⟨e0, e1⟩ := (idx_rows t).2.2.2.1
  intro a
  match a with
  | ⟨0, _⟩ => show win0_19.index t (0 : Fin 2) * 4800 ≤ (i 0).val ∧ (i 0).val < win0_19.index t (0 : Fin 2) * 4800 + 4800; rw [e0, ht]; omega
  | ⟨1, _⟩ => show win0_19.index t (1 : Fin 2) * 64 ≤ (i 1).val ∧ (i 1).val < win0_19.index t (1 : Fin 2) * 64 + 64; rw [e1]; omega
theorem cover20 (i : S480000x64.Idx) : ∃ t : Fin cfg0.N, (cfg0.win 20).flush t = true ∧ i ∈ ((cfg0.win 20).blk t).view.set := by
  have hi0 : (i 0).val < 480000 := (i 0).isLt
  have hi1 : (i 1).val < 64 := (i 1).isLt
  let t : Fin cfg0.N := (⟨(i 0).val / 4800, by omega⟩ : Fin 100).cast N_0.symm
  have ht : t.val = (i 0).val / 4800 := rfl
  refine ⟨t, flush0_20 t, ?_⟩
  rw [mem_blk20]
  obtain ⟨e0, e1⟩ := (idx_rows t).2.2.2.2
  intro a
  match a with
  | ⟨0, _⟩ => show win0_20.index t (0 : Fin 2) * 4800 ≤ (i 0).val ∧ (i 0).val < win0_20.index t (0 : Fin 2) * 4800 + 4800; rw [e0, ht]; omega
  | ⟨1, _⟩ => show win0_20.index t (1 : Fin 2) * 64 ≤ (i 1).val ∧ (i 1).val < win0_20.index t (1 : Fin 2) * 64 + 64; rw [e1]; omega

/-- After the region the edge result holds the new edge features, -/
theorem final19 (c : Dev nD) : (dats m 0 c).arrAt 19 cfg0.N = E m c :=
  (dats m 0 c).arrAt_eq_of_cover 19 (E m c) (fun t _ => flushed19_eq m c t) cover19
/-- and the message array the messages. -/
theorem final20 (c : Dev nD) : (dats m 0 c).arrAt 20 cfg0.N = M m c :=
  (dats m 0 c).arrAt_eq_of_cover 20 (M m c) (fun t _ => flushed20_eq m c t) cover20

/-! ## The host lines around the region -/

/-- The host lines before the region gather the source rows -/
theorem V_main_v6 (c : Dev nD) :
    (V m c main_v6 : Arr) = gath (m ((c : Thread nD τ).loc main_arg0)) (m ((c : Thread nD τ).loc main_arg2)) := by
  show StableHlo.after hostOps0 (fun b => m (c, b)) (Proc.devRef .tc main_v6) = _
  after_results
  rfl
/-- and the destination rows. -/
theorem V_main_v13 (c : Dev nD) :
    (V m c main_v13 : Arr) = gath (m ((c : Thread nD τ).loc main_arg0)) (m ((c : Thread nD τ).loc main_arg3)) := by
  show StableHlo.after hostOps0 (fun b => m (c, b)) (Proc.devRef .tc main_v13) = _
  after_results
  rfl

/-- The new edge features the region leaves are the edge stage of the launch arrays, -/
theorem E_eq (c : Dev nD) : E m c = edgeOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  unfold E edgeOf
  rw [V_main_v6, V_main_v13, V_main_arg1, V_main_arg4, V_main_arg5, V_main_arg6, V_main_arg7, V_main_arg8, V_main_arg9,
    V_main_arg10, V_main_arg11]
/-- and the messages those of the launch arrays. -/
theorem M_eq (c : Dev nD) : M m c = message (gath (m ((c : Thread nD τ).loc main_arg0)) (m ((c : Thread nD τ).loc main_arg2))) (gath (m ((c : Thread nD τ).loc main_arg0)) (m ((c : Thread nD τ).loc main_arg3))) (edgeOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))
    (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  unfold M
  rw [E_eq, V_main_v6, V_main_v13, V_main_arg12, V_main_arg13, V_main_arg14, V_main_arg15, V_main_arg16, V_main_arg17,
    V_main_arg18, V_main_arg19]

/-- The host lines after the region sum the message array into the nodes: the node stage of the launch arrays. -/
theorem tail_node (c : Dev nD) :
    Pipeline.afterTail₀ cfgs (dats m) 0 (V0 m) [hostOps1] c main_v19 = nodeOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  unfold Pipeline.afterTail₀
  show StableHlo.after hostOps1 _ (Proc.devRef .tc main_v19) = _
  after_results
  have h20 : Pipeline.withArrays (cfgs 0).spec c (V0 m c) (fun w => (dats m 0 c).arrAt w (cfgs 0).N) (Proc.devRef .tc main_v14_1) = M m c :=
    (Pipeline.withArrays_arr spec0 launch0.win.arr_inj c _ _ 20).trans (final20 m c)
  have h0 : Pipeline.withArrays (cfgs 0).spec c (V0 m c) (fun w => (dats m 0 c).arrAt w (cfgs 0).N) (Proc.devRef .tc main_arg0) = (m ((c : Thread nD τ).loc main_arg0)) :=
    (Pipeline.withArrays_of_ne _ c (V0 m c) _ main_arg0 (by exact (by decide : ∀ w, Pipeline.arrRef spec0 w ≠ main_arg0))).trans (V_main_arg0 m c)
  have h3 : Pipeline.withArrays (cfgs 0).spec c (V0 m c) (fun w => (dats m 0 c).arrAt w (cfgs 0).N) (Proc.devRef .tc main_arg3) = (m ((c : Thread nD τ).loc main_arg3)) :=
    (Pipeline.withArrays_of_ne _ c (V0 m c) _ main_arg3 (by exact (by decide : ∀ w, Pipeline.arrRef spec0 w ≠ main_arg3))).trans (V_main_arg3 m c)
  have h20a : Pipeline.withArrays (cfgs 0).spec c (V0 m c) (fun w => (dats m 0 c).arrAt w (cfgs 0).N) (Proc.devRef .tc main_arg20) = (m ((c : Thread nD τ).loc main_arg20)) :=
    (Pipeline.withArrays_of_ne _ c (V0 m c) _ main_arg20 (by exact (by decide : ∀ w, Pipeline.arrRef spec0 w ≠ main_arg20))).trans (V_main_arg20 m c)
  rw [h20, h0, h3, h20a, M_eq]
  rfl

/-! ## The run, read -/

set_option maxHeartbeats 4000000 in
/-- Every weakly fair execution of the kernel's program ends with the node result at the node stage and the edge result at
    the edge stage of the launch arrays, the arguments unchanged. -/
theorem run : θ_run defs (onTc (τ := τ) (main (F := Ideal))) ⟨m, fun _ => 0, ρ⟩ fun r => ∀ c : Dev nD,
      r.2.mem ((c.tc : Thread nD τ).loc main_v19) = nodeOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))
      ∧ r.2.mem ((c.tc : Thread nD τ).loc main_v14_0) = edgeOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨((h c).2 main_v19 (Pipeline.mem_restRefs_of main_v19 (by decide) (by decide))).trans (tail_node m c),
      ((h c).1 19).trans ((final19 m c).trans (E_eq m c)),
      (((h c).2 main_arg0 (Pipeline.mem_restRefs_of main_arg0 (by decide) (by decide))).trans (W_main_arg0 m (dats m) c)),
      ((h c).1 2).trans (((dats m 0 c).arrAt_in 2 rfl _).trans ((A_eq m c 2).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c))),
      ((h c).1 8).trans (((dats m 0 c).arrAt_in 8 rfl _).trans ((A_eq m c 8).trans (V_main_arg9 m c))),
      ((h c).1 9).trans (((dats m 0 c).arrAt_in 9 rfl _).trans ((A_eq m c 9).trans (V_main_arg10 m c))),
      ((h c).1 10).trans (((dats m 0 c).arrAt_in 10 rfl _).trans ((A_eq m c 10).trans (V_main_arg11 m c))),
      ((h c).1 11).trans (((dats m 0 c).arrAt_in 11 rfl _).trans ((A_eq m c 11).trans (V_main_arg12 m c))),
      ((h c).1 12).trans (((dats m 0 c).arrAt_in 12 rfl _).trans ((A_eq m c 12).trans (V_main_arg13 m c))),
      ((h c).1 13).trans (((dats m 0 c).arrAt_in 13 rfl _).trans ((A_eq m c 13).trans (V_main_arg14 m c))),
      ((h c).1 14).trans (((dats m 0 c).arrAt_in 14 rfl _).trans ((A_eq m c 14).trans (V_main_arg15 m c))),
      ((h c).1 15).trans (((dats m 0 c).arrAt_in 15 rfl _).trans ((A_eq m c 15).trans (V_main_arg16 m c))),
      ((h c).1 16).trans (((dats m 0 c).arrAt_in 16 rfl _).trans ((A_eq m c 16).trans (V_main_arg17 m c))),
      ((h c).1 17).trans (((dats m 0 c).arrAt_in 17 rfl _).trans ((A_eq m c 17).trans (V_main_arg18 m c))),
      ((h c).1 18).trans (((dats m 0 c).arrAt_in 18 rfl _).trans ((A_eq m c 18).trans (V_main_arg19 m c))),
      (((h c).2 main_arg20 (Pipeline.mem_restRefs_of main_arg20 (by decide) (by decide))).trans (W_main_arg20 m (dats m) c))
⟩)
    (run_main m ρ)

end Cert.EdgeValue.OnKernel

end
-- ==== Proof.RefValue.lean ====
/-
  What the reference's program leaves in its two results, in the words of the stages.

  Its run ends with the second result at the new edge features of the gathered source rows, the gathered destination rows
  and the edge features, and with the first at the node update of the messages: the run's two composed terms are these
  stages applied to the launch arrays, operation for operation.
-/
import proofs.«153593_j60447369724157_1_alg».proof.Proof.Gen.ReferenceIdeal.Run
import proofs.«153593_j60447369724157_1_alg».proof.Proof.EdgeValue

set_option maxRecDepth 16384

noncomputable section

namespace Cert.EdgeValue.OnHost

open Idealize.ShloMosaic Idealize.ShloMosaic.TcCoe Idealize.SL.Sem
open Cert.ReferenceIdeal Cert.EdgeValue

variable (m : (ℓ : Loc nD τ sig) → Buf (Elt Ideal) ℓ) (c : Dev nD)

/-- The run's term for the edge result is the edge stage of the launch arrays. -/
theorem res_edge : Cert.ReferenceIdeal.Value.res_main_v41 m c
    = edgeOf (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.Value.res_main_v41 edgeOf edge layers gates silu sigm one lin64 lin192 bias cat gath
  rfl

/-- The run's term for the node result is the node stage of the launch arrays. -/
theorem res_node : Cert.ReferenceIdeal.Value.res_main_v73 m c
    = nodeOf (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14)) (m ((c.tc : Thread nD τ).loc main_arg15))
        (m ((c.tc : Thread nD τ).loc main_arg16)) (m ((c.tc : Thread nD τ).loc main_arg17)) (m ((c.tc : Thread nD τ).loc main_arg18)) (m ((c.tc : Thread nD τ).loc main_arg19))
        (m ((c.tc : Thread nD τ).loc main_arg20)) := by
  unfold Cert.ReferenceIdeal.Value.res_main_v73 nodeOf aggregate message edgeOf edge layers gates silu sigm one lin64 lin192 bias cat gath
  rfl

end Cert.EdgeValue.OnHost

end
-- ==== Proof.lean ====
/-
  The certificate of the graph-convolution layer: the Pallas kernel's program against the jnp reference.

  One layer of message passing over 30000 nodes and 480000 edges, 64 features each. Both programs gather each edge's source
  and destination rows of the node table, update the edge features by a gated two-layer perceptron of (source ‖ edge ‖
  destination), compute a message by a second gated perceptron of (source ‖ new edge ‖ destination), sum the messages
  into their destination nodes, multiply by the output weights and add the node table. The gathers and the sum over
  destinations are the same host operations in both programs. The two perceptrons the reference computes for all edges at
  once; the kernel computes them 4800 edges at a time, over a grid of 100 points, multiplying in a narrower float format
  (the identity on extended reals) and applying the logistic function as one operation where the host spells it
  `1 / (1 + exp (-z))` (one function of an extended real). Every step of a perceptron acts on each edge's row by itself, so
  the kernel's block of results is the block of the reference's results, and the 100 blocks cover the arrays: at the ideal
  values the two programs end with the same two results, entry for entry. No law of arithmetic is used beyond `0 + x = x`
  (the product's zero accumulator), so the precondition is not needed for the values.

  The frames of the two kernel programs are the generated ones; the reference's frame is its generated run. The ideal pass
  rewrote nothing, so there is nothing to preserve.
-/
import proofs.«153593_j60447369724157_1_alg».proof.Defs
import proofs.«153593_j60447369724157_1_alg».proof.Proof.Gen.Kernel
import proofs.«153593_j60447369724157_1_alg».proof.Proof.Gen.Kernel.Frame
import proofs.«153593_j60447369724157_1_alg».proof.Proof.Gen.KernelIdeal
import proofs.«153593_j60447369724157_1_alg».proof.Proof.Gen.KernelIdeal.Frame
import proofs.«153593_j60447369724157_1_alg».proof.Proof.Gen.ReferenceIdeal
import proofs.«153593_j60447369724157_1_alg».proof.Proof.Gen.ReferenceIdeal.Run
import proofs.«153593_j60447369724157_1_alg».proof.Proof.Gen.Pre_finite_inputs
import proofs.«153593_j60447369724157_1_alg».proof.Proof.KernelValue
import proofs.«153593_j60447369724157_1_alg».proof.Proof.RefValue
import Idealize.ShloMosaic.Adequacy
import Idealize.ShloMosaic.Init

noncomputable section

namespace Cert.Proof

open Idealize.ShloMosaic Idealize.SL.Sem

/-- The kernel's program runs and leaves its arguments as they were. -/
theorem frame_k : Cert.frame_Kernel := fun m ρ _ => Cert.Kernel.Gen.frame m ρ
/-- So does its reading at the ideal values, -/
theorem frame_ki : Cert.frame_KernelIdeal := fun m ρ _ => Cert.KernelIdeal.Gen.frame m ρ
/-- and the reference, by its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From launch arrays that agree, both programs end with the node result at the node stage and the edge result at the
    edge stage of those arrays. -/
theorem algebraic : Cert.algebraic_KernelIdeal_ReferenceIdeal := by
  intro m ρ m' ρ' _ hagree
  refine ⟨_, _, Cert.EdgeValue.OnKernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.EdgeValue.OnHost.res_node, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2]
  · rw [Cert.EdgeValue.OnHost.res_edge, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
